-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S_ : Shape := ⟨0, ![]⟩
abbrev S1x640000 : Shape := ⟨2, ![1, 640000]⟩
abbrev S640000 : Shape := ⟨1, ![640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  reducesTo_S_S_d : S_.ReducesTo [] S_
  slices_S2x640000_S1x640000_1_0 : S2x640000.Slices ![1, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part1 {F : FTy → Type} [FloatOps F] (main_v7 : IVec S_ 1) (main_v16 : IVec S640000 1) (main_c_4 : IVec S_ 1) : IVec S_ 1 :=
  let main_v17 : IVec S_ 1 := (fun x v => Host.reduce IntOp.andi x v reducesTo_S640000_S_d0 h_S_) main_v16 main_c_4
  let main_v18 : IVec S_ 1 := andi main_v7 main_v17
  main_v18

def fn {F : FTy → Type} [FloatOps F] (main_arg0 : FVec F S10000x128 .f32) (main_arg1 : IVec S2x640000 32) (main_arg2 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : IVec S1x640000 32 := (extractStridedSlice S1x640000 ![1, 0] · slices_S2x640000_S1x640000_1_0) main_arg1
  let main_v9 : IVec S640000 32 := shapeCast S640000 main_v8 shapeCasts_S1x640000_S640000
  let main_c_2 : IVec S_ 32 := constantI S_ 32 0#32
  let main_v10 : IVec S640000 32 := broadcastInDim S640000 ![] bcast_S_S640000 main_c_2
  let main_v11 : IVec S640000 1 := cmpi .sge main_v9 main_v10
  let main_v12 : IVec S1x640000 32 := (extractStridedSlice S1x640000 ![1, 0] · slices_S2x640000_S1x640000_1_0) main_arg1
  let main_v13 : IVec S640000 32 := shapeCast S640000 main_v12 shapeCasts_S1x640000_S640000
  let main_c_3 : IVec S_ 32 := constantI S_ 32 10000#32
  let main_v14 : IVec S640000 32 := broadcastInDim S640000 ![] bcast_S_S640000 main_c_3
  let main_v15 : IVec S640000 1 := cmpi .slt main_v13 main_v14
  let main_v16 : IVec S640000 1 := andi main_v11 main_v15
  let main_c_4 : IVec S_ 1 := constantI S_ 1 1#1
  fn_part1 (F := F) main_v7 main_v16 main_c_4
-- ==== Kernel.lean ====
abbrev S10000x128 : Shape := ⟨2, ![10000, 128]⟩
abbrev S2x640000 : Shape := ⟨2, ![2, 640000]⟩
abbrev S_ : Shape := ⟨0, ![]⟩
abbrev S10112x128 : Shape := ⟨2, ![10112, 128]⟩
abbrev S1x640000 : Shape := ⟨2, ![1, 640000]⟩
abbrev S640000 : Shape := ⟨1, ![640000]⟩
abbrev S2x320000x1 : Shape := ⟨3, ![2, 320000, 1]⟩
abbrev S2x10112x128 : Shape := ⟨3, ![2, 10112, 128]⟩
abbrev S1x512x1 : Shape := ⟨3, ![1, 512, 1]⟩
abbrev S1x10112x128 : Shape := ⟨3, ![1, 10112, 128]⟩
abbrev S512x1 : Shape := ⟨2, ![512, 1]⟩
abbrev S1x10112 : Shape := ⟨2, ![1, 10112]⟩
abbrev S512x10112 : Shape := ⟨2, ![512, 10112]⟩
abbrev S512x128 : Shape := ⟨2, ![512, 128]⟩

abbrev nBuf : Space → Nat
  | .hbm => 24
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S_, .f32⟩
  | .hbm, ⟨3, _⟩ => ⟨S_, .i32⟩
  | .hbm, ⟨4, _⟩ => ⟨S_, .f32⟩
  | .hbm, ⟨5, _⟩ => ⟨S10112x128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S2x320000x1, .i32⟩
  | .hbm, ⟨11, _⟩ => ⟨S2x320000x1, .i32⟩
  | .hbm, ⟨12, _⟩ => ⟨S2x10112x128, .f32⟩
  | .hbm, ⟨13, _⟩ => ⟨S1x10112x128, .f32⟩
  | .hbm, ⟨14, _⟩ => ⟨S10112x128, .f32⟩
  | .hbm, ⟨15, _⟩ => ⟨S1x10112x128, .f32⟩
  | .hbm, ⟨16, _⟩ => ⟨S10112x128, .f32⟩
  | .hbm, ⟨17, _⟩ => ⟨S10112x128, .f32⟩
  | .hbm, ⟨18, _⟩ => ⟨S10000x128, .f32⟩
  | .hbm, ⟨19, _⟩ => ⟨S_, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S10000x128, .f32⟩
  | .local _ .vmem, ⟨0, _⟩ => ⟨S1x512x1, .i32⟩
  | .local _ .vmem, ⟨1, _⟩ => ⟨S1x512x1, .i32⟩
  | .local _ .vmem, ⟨2, _⟩ => ⟨S1x512x1, .i32⟩
  | .local _ .vmem, ⟨3, _⟩ => ⟨S1x512x1, .i32⟩
  | .local _ .vmem, ⟨4, _⟩ => ⟨S10112x128, .f32⟩
  | .local _ .vmem, ⟨5, _⟩ => ⟨S1x10112x128, .f32⟩
  | .local _ .vmem, ⟨6, _⟩ => ⟨S1x10112x128, .f32⟩
  | .local _ .vmem, ⟨7, _⟩ => ⟨S10112x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 625], ![false, false]⟩

def k0_cond2 (i : grid0.Coords) : BitVec 1 :=
  let arg1 : BitVec 32 := BitVec.ofNat 32 (i 1).val
  let c624_i32 : BitVec 32 := 624#32
  let v31 : BitVec 1 := Scalar.cmpi .eq arg1 c624_i32
  let v32 : BitVec 32 := Scalar.extui v31
  let c0_i32_13 : BitVec 32 := 0#32
  let v33 : BitVec 1 := Scalar.cmpi .ne v32 c0_i32_13
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S10112x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x10112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S10000x128_S10112x128_01120_000 : S10000x128.Pads (![0, 0] : Fin 2 → Nat) ![112, 0] ![0, 0] S10112x128
  h_S_ : 0 < S_.numel
  slices_S2x640000_S1x640000_1_0 : S2x640000.Slices ![1, 0] S1x640000
  shapeCasts_S1x640000_S640000 : S1x640000.ShapeCasts S640000
  slices_S2x640000_S1x640000_0_0 : S2x640000.Slices ![0, 0] S1x640000
  shapeCasts_S640000_S2x320000x1 : S640000.ShapeCasts S2x320000x1
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  iota_S1x10112_d1_w32 : S1x10112.Iotas .tc 32 [1]
  broadcasts_S512x1_S512x10112 : S512x1.Broadcasts S512x10112
  broadcasts_S1x10112_S512x10112 : S1x10112.Broadcasts S512x10112
  natLt_1_32 : 1 < 32
  bitsLt_bf16_f32 : FTy.bits .bf16 < FTy.bits .f32
  inb_S1x10112x128_S1x10112x128_0_0_0 : ∀ a, (![0, 0, 0] : Fin 3 → Nat) a + S1x10112x128.size a ≤ S1x10112x128.size a
  h_S1x10112x128 : 0 < S1x10112x128.numel
  shapeCasts_S1x10112x128_S10112x128 : S1x10112x128.ShapeCasts S10112x128
  shapeCasts_S10112x128_S1x10112x128 : S10112x128.ShapeCasts S1x10112x128
  slices_S2x10112x128_S1x10112x128_0_0_0 : S2x10112x128.Slices ![0, 0, 0] S1x10112x128
  slices_S2x10112x128_S1x10112x128_1_0_0 : S2x10112x128.Slices ![1, 0, 0] S1x10112x128
  slices_S10112x128_S10000x128_0_0 : S10112x128.Slices ![0, 0] S10000x128
  bcast_S_S10000x128 : S_.BroadcastsInDim S10000x128 (![] : Fin 0 → Fin S10000x128.rank)
  dot_S512x10112_S10112x128_S512x128_1_0_0_1_n_n_wf : DotDims.WF S512x10112 S10112x128 S512x128 [1] [0] [0] [1] [] []
  dot_S512x10112_S512x128_S10112x128_0_0_1_1_n_n_wf : DotDims.WF S512x10112 S512x128 S10112x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S2x320000x1.size a
  hwx0_0 : ∀ i : grid0.Coords, EltTy.bits .i32 = 32 ∨ (Rect.block (s := S2x320000x1) S1x512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S2x320000x1.size a
  hwx0_1 : ∀ i : grid0.Coords, EltTy.bits .i32 = 32 ∨ (Rect.block (s := S2x320000x1) S1x512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10112x128.size a ≤ S10112x128.size a
  hwx0_2 : ∀ i : grid0.Coords, EltTy.bits .f32 = 32 ∨ (Rect.block (s := S10112x128) S10112x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10112x128.size a ≤ S2x10112x128.size a
  hwx0_3 : ∀ i : grid0.Coords, EltTy.bits .f32 = 32 ∨ (Rect.block (s := S2x10112x128) S1x10112x128.size (cc0_transform_3 i) (hinb0_3 i)).WholeWords (EltTy.packing .f32)

variable [Facts₀]

def dot_S512x10112_S10112x128_S512x128_1_0_0_1_n_n : DotDims S512x10112 S10112x128 S512x128 where
  lhsContracting := [1]
  rhsContracting := [0]
  lhsNonContracting := [0]
  rhsNonContracting := [1]
  lhsBatch := []
  rhsBatch := []
  wf := dot_S512x10112_S10112x128_S512x128_1_0_0_1_n_n_wf
def dot_S512x10112_S512x128_S10112x128_0_0_1_1_n_n : DotDims S512x10112 S512x128 S10112x128 where
  lhsContracting := [0]
  rhsContracting := [0]
  lhsNonContracting := [1]
  rhsNonContracting := [1]
  lhsBatch := []
  rhsBatch := []
  wf := dot_S512x10112_S512x128_S10112x128_0_0_1_1_n_n_wf

abbrev win0_0 : Pipeline.Window sig grid0 :=
  Pipeline.Window.ofSpec (Memref.whole main_v5) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10112x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x10112x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S_ : Shape := ⟨0, ![]⟩
abbrev S1x640000 : Shape := ⟨2, ![1, 640000]⟩
abbrev S640000 : Shape := ⟨1, ![640000]⟩
abbrev S640000x1 : Shape := ⟨2, ![640000, 1]⟩
abbrev S640000x128 : Shape := ⟨2, ![640000, 128]⟩

abbrev nBuf : Space → Nat
  | .hbm => 25
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S_, .f32⟩
  | .hbm, ⟨3, _⟩ => ⟨S1x640000, .i32⟩
  | .hbm, ⟨4, _⟩ => ⟨S640000, .i32⟩
  | .hbm, ⟨5, _⟩ => ⟨S1x640000, .i32⟩
  | .hbm, ⟨6, _⟩ => ⟨S640000, .i32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S_, .f32⟩
  | .hbm, ⟨17, _⟩ => ⟨S10000x128, .f32⟩
  | .hbm, ⟨18, _⟩ => ⟨S640000x1, .i32⟩
  | .hbm, ⟨19, _⟩ => ⟨S10000x128, .f32⟩
  | .hbm, ⟨20, _⟩ => ⟨S_, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  slices_S2x640000_S1x640000_1_0 : S2x640000.Slices ![1, 0] S1x640000
  shapeCasts_S1x640000_S640000 : S1x640000.ShapeCasts S640000
  slices_S2x640000_S1x640000_0_0 : S2x640000.Slices ![0, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.Pieces.lean ====
/-
  What each control case of the body leaves, as values.

  The body has three cases over the block coordinate b: the first block (b = 0) resets the accumulator to zero and then
  adds; a middle block adds; the last block (b = 624) adds and then copies the accumulator to the output block. Each
  case's stores cover the buffers whole, so what the accumulator and the output block hold afterwards is the stored
  value: the accumulator update of the case's loads, and, in the last case, that update under a leading unit axis.
-/
import proofs.«430740_j24953759989866_1_alg».proof.Proof.Gen.KernelIdeal.Frame
import Idealize.ShloMosaic.Lib.Pipeline.Value
import Idealize.ShloMosaic.Lib.Tactic

set_option maxRecDepth 16384

noncomputable section

namespace Cert.KernelIdeal.Acc

open Idealize.ShloMosaic Idealize.ShloMosaic.TcCoe Idealize.ShloMosaic.Tactic Idealize.SL.Sem
open Cert.KernelIdeal Cert.KernelIdeal.Gen

variable {F : FTy → Type} [FloatOps F]

/-- The zero offsets of a rank-2 whole-buffer access, as the constant function. -/
private theorem hz : (![0, 0] : Fin 2 → Nat) = fun _ => 0 := funext fun a => by fin_cases a <;> rfl

/-- The zero offsets of a rank-3 whole-buffer access, as the constant function. -/
private theorem hz3 : (![0, 0, 0] : Fin 3 → Nat) = fun _ => 0 := funext fun a => by fin_cases a <;> rfl

/-- The first block: the accumulator ends at the update of zero. -/
theorem sout_A (c : Dev nD) (i : grid0.Coords) (arg2 : Memref sig .tc .vmem S1x512x1 .i32) (harg2 : arg2.IsWhole) (arg3 : Memref sig .tc .vmem S1x512x1 .i32) (harg3 : arg3.IsWhole) (arg4 : Memref sig .tc .vmem S10112x128 .f32) (harg4 : arg4.IsWhole) (arg5 : Memref sig .tc .vmem S1x10112x128 .f32) (harg5 : arg5.IsWhole) (arg6 : Memref sig .tc .vmem S10112x128 .f32) (harg6 : arg6.IsWhole) (hc0 : cond0_0 i) (hc1 : ¬cond0_1 i)
    (x0 : Vec F S1x512x1 .i32) (x1 : Vec F S1x512x1 .i32) (x2 : Vec F S10112x128 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  -- two stores, the later one whole: it decides; its fourth argument reads the reset back
  rw [View.canon_cons_unit_zero (S := S10112x128) hz, View.readCov_unit_zero (S := S10112x128) _ hz]
  -- the three input loads read whole buffers at their contents
  simp only [View.readAt_eq_ld, harg2.read_unread, harg3.read_unread, harg4.read_unread, View.ld_unit_zero (S := S10112x128) hz, View.ld_unit_zero (S := S1x512x1) hz3]

/-- A middle block: the accumulator ends at the update of what it held. -/
theorem sout_B (c : Dev nD) (i : grid0.Coords) (arg2 : Memref sig .tc .vmem S1x512x1 .i32) (harg2 : arg2.IsWhole) (arg3 : Memref sig .tc .vmem S1x512x1 .i32) (harg3 : arg3.IsWhole) (arg4 : Memref sig .tc .vmem S10112x128 .f32) (harg4 : arg4.IsWhole) (arg5 : Memref sig .tc .vmem S1x10112x128 .f32) (harg5 : arg5.IsWhole) (arg6 : Memref sig .tc .vmem S10112x128 .f32) (harg6 : arg6.IsWhole) (hc0 : ¬cond0_0 i) (hc1 : ¬cond0_1 i)
    (x0 : Vec F S1x512x1 .i32) (x1 : Vec F S1x512x1 .i32) (x2 : Vec F S10112x128 .f32) (xs0 : Vec F S10112x128 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  -- one whole store: its payload is what is left
  rw [View.canon_unit_zero hz]
  -- the loads read whole buffers at their contents, the accumulator's at what it held on entry
  simp only [View.readAt_eq_ld, harg2.read_unread, harg3.read_unread, harg4.read_unread, harg6.read_unread, View.ld_unit_zero (S := S10112x128) hz, View.ld_unit_zero (S := S1x512x1) hz3]

/-- The last block: the accumulator ends at the update of what it held, -/
theorem sout_C (c : Dev nD) (i : grid0.Coords) (arg2 : Memref sig .tc .vmem S1x512x1 .i32) (harg2 : arg2.IsWhole) (arg3 : Memref sig .tc .vmem S1x512x1 .i32) (harg3 : arg3.IsWhole) (arg4 : Memref sig .tc .vmem S10112x128 .f32) (harg4 : arg4.IsWhole) (arg5 : Memref sig .tc .vmem S1x10112x128 .f32) (harg5 : arg5.IsWhole) (arg6 : Memref sig .tc .vmem S10112x128 .f32) (harg6 : arg6.IsWhole) (hc0 : ¬cond0_0 i) (hc1 : cond0_1 i)
    (x0 : Vec F S1x512x1 .i32) (x1 : Vec F S1x512x1 .i32) (x2 : Vec F S10112x128 .f32) (xs0 : Vec F S10112x128 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  -- one whole store into the accumulator: its payload is what is left
  rw [View.canon_unit_zero hz]
  simp only [View.readAt_eq_ld, harg2.read_unread, harg3.read_unread, harg4.read_unread, harg6.read_unread, View.ld_unit_zero (S := S10112x128) hz, View.ld_unit_zero (S := S1x512x1) hz3]

/-- and the output block at that update under a leading unit axis. -/
theorem out_C (c : Dev nD) (i : grid0.Coords) (arg2 : Memref sig .tc .vmem S1x512x1 .i32) (harg2 : arg2.IsWhole) (arg3 : Memref sig .tc .vmem S1x512x1 .i32) (harg3 : arg3.IsWhole) (arg4 : Memref sig .tc .vmem S10112x128 .f32) (harg4 : arg4.IsWhole) (arg5 : Memref sig .tc .vmem S1x10112x128 .f32) (harg5 : arg5.IsWhole) (arg6 : Memref sig .tc .vmem S10112x128 .f32) (harg6 : arg6.IsWhole) (hc0 : ¬cond0_0 i) (hc1 : cond0_1 i)
    (x0 : Vec F S1x512x1 .i32) (x1 : Vec F S1x512x1 .i32) (x2 : Vec F S10112x128 .f32) (xs0 : Vec F S10112x128 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  -- one whole store into the output block: its payload is what is left,
  rw [View.canon_unit_zero hz3]
  -- and that payload is built on the accumulator read back after its own whole store
  simp only [View.readAt_eq_ld, harg2.read_unread, harg3.read_unread, harg4.read_unread, harg6.read_unread, View.ld_unit_zero (S := S10112x128) hz, View.ld_unit_zero (S := S1x512x1) hz3, View.readCov_unit_zero (S := S10112x128) _ hz]

end Cert.KernelIdeal.Acc

end
-- ==== Proof.LibBlockSum.lean ====
/-
  A sum over an initial segment of the naturals cut into consecutive blocks of one length: with N = T · L, the sum over
  n < N of g n is the sum over the blocks t < T of the sums over the places l < L of g (t · L + l). Over any commutative
  additive monoid: every n < T · L is t · L + l for exactly one pair (t, l) (division with remainder).
-/
import Mathlib.Logic.Equiv.Fin.Basic
import Mathlib.Data.Fintype.BigOperators
import Mathlib.Algebra.BigOperators.Group.Finset.Defs

namespace Cert.Lib

/-- The sum over `Fin N`, `N = T * L`, taken block by block: block `t` holds the indices `t * L + l` for `l < L`.
    The pairs (t, l) correspond one to one to the indices below `T * L` (`finProdFinEquiv`), and a sum over pairs is the
    iterated sum. -/
theorem sum_blocks {M : Type*} [AddCommMonoid M] {T L N : ℕ} (hN : T * L = N) (g : Fin N → M)
    (hb : ∀ (t : Fin T) (l : Fin L), t.val * L + l.val < N) :
    ∑ t : Fin T, ∑ l : Fin L, g ⟨t.val * L + l.val, hb t l⟩ = ∑ n : Fin N, g n := by
  subst hN
  rw [← (finProdFinEquiv (m := T) (n := L)).sum_comp g, Fintype.sum_prod_type]
  refine Finset.sum_congr rfl fun t _ => Finset.sum_congr rfl fun l _ => congrArg g (Fin.ext ?_)
  show t.val * L + l.val = l.val + L * t.val
  rw [Nat.mul_comm, Nat.add_comm]

/-- The same with a second, inner index carried along: the sum over n of the sums over j. -/
theorem sum_blocks₂ {M : Type*} [AddCommMonoid M] {T L N K : ℕ} (hN : T * L = N) (g : Fin K → Fin N → M)
    (hb : ∀ (t : Fin T) (l : Fin L), t.val * L + l.val < N) :
    ∑ t : Fin T, ∑ l : Fin L, ∑ j : Fin K, g j ⟨t.val * L + l.val, hb t l⟩ = ∑ n : Fin N, ∑ j : Fin K, g j n :=
  sum_blocks hN (fun n => ∑ j : Fin K, g j n) hb

end Cert.Lib
-- ==== Proof.Selector.lean ====
/-
  Selector entries and the edge list cut into blocks.

  A selector matrix has, at row e and column q, the number 1 when row e's index word is the word of position q and 0
  otherwise. A row of it times a column vector picks the vector's entry at the index (or nothing, when the index is no
  position of the vector): this is how a dense matrix product does a gather, and, transposed, a scatter-add.
  The 640000 edges are cut into 2 halves of 625 blocks of 512 edges; a sum over the edges is the triple sum.
-/
import Idealize.ShloMosaic.Lib.ValueIdx
import Idealize.ShloMosaic.PureOps.Ideal
import Idealize.ShloMosaic.Lib.StableHlo.Predicate
import proofs.«430740_j24953759989866_1_alg».proof.Proof.LibBlockSum

noncomputable section

namespace Cert.Gin

open Idealize.ShloMosaic Idealize.ShloMosaic.ValueIdx

/-- The selector entry of two 32-bit words: the equality bit, widened to a word, read as a signed integer, as an extended
    real. -/
def sel (a b : BitVec 32) : EReal := ((((IntOp.cmpi .eq a b).setWidth 32).toInt : ℝ) : EReal)

/-- It is 1 on equal words and 0 otherwise. -/
theorem sel_eq (a b : BitVec 32) : sel a b = if a = b then 1 else 0 := by
  unfold sel
  by_cases h : a = b
  · -- equal words: the equality bit is 1, and the widened 1 reads as the integer 1
    have h1 : ((1#1 : BitVec 1).setWidth 32).toInt = 1 := by decide
    rw [if_pos h, StableHlo.Predicate.cmpi_eq_iff.mpr h, h1, Int.cast_one, EReal.coe_one]
  · -- different words: a bit that is not 1 is 0, and the widened 0 reads as the integer 0
    have h0 : IntOp.cmpi .eq a b = 0#1 := by
      rcases BitVec.eq_zero_or_eq_one (IntOp.cmpi .eq a b) with h' | h'
      · exact h'
      · exact absurd (StableHlo.Predicate.cmpi_eq_iff.mp h') h
    have h2 : ((0#1 : BitVec 1).setWidth 32).toInt = 0 := by decide
    rw [if_neg h, h0, h2, Int.cast_zero, EReal.coe_zero]

/-- A selector row times a column: the column's entry at the word's position when the word names one of the K
    positions, nothing otherwise. -/
theorem sel_sum {K : ℕ} (hK : K < 2 ^ 32) (a : BitVec 32) (w : Fin K → EReal) :
    ∑ q : Fin K, sel a (BitVec.ofNat 32 q.val) * w q = if h : a.toNat < K then w ⟨a.toNat, h⟩ else 0 := by
  -- a word equals the word of a position q < 2 ^ 32 exactly when its value is q
  have key : ∀ q : Fin K, a = BitVec.ofNat 32 q.val ↔ a.toNat = q.val := by
    intro q
    have hq : q.val % 2 ^ 32 = q.val := Nat.mod_eq_of_lt (by have := q.isLt; omega)
    constructor
    · intro h; rw [h, BitVec.toNat_ofNat, hq]
    · intro h; apply BitVec.eq_of_toNat_eq; rw [BitVec.toNat_ofNat, hq]; exact h
  -- each term is the column's entry at q when q is the word's value, and 0 otherwise
  have hterm : ∀ q : Fin K, sel a (BitVec.ofNat 32 q.val) * w q = if a.toNat = q.val then w q else 0 := by
    intro q
    rw [sel_eq]
    by_cases h : a.toNat = q.val
    · rw [if_pos ((key q).mpr h), if_pos h, one_mul]
    · rw [if_neg (fun h' => h ((key q).mp h')), if_neg h, zero_mul]
  rw [Finset.sum_congr rfl (fun q _ => hterm q)]
  by_cases h : a.toNat < K
  · -- the word names a position: only that term survives
    rw [dif_pos h, Finset.sum_eq_single (⟨a.toNat, h⟩ : Fin K)]
    · exact if_pos rfl
    · intro q _ hq
      exact if_neg (fun h' => hq (Fin.ext h'.symm))
    · intro hn; exact absurd (Finset.mem_univ _) hn
  · -- the word names no position: every term is 0
    rw [dif_neg h]
    refine Finset.sum_eq_zero fun q _ => if_neg (fun h' => h ?_)
    rw [h']; exact q.isLt

/-- The edge with number sh · 320000 + b · 512 + e. -/
def edge (sh : Fin 2) (b : Fin 625) (e : Fin 512) : Fin 640000 :=
  ⟨sh.val * 320000 + b.val * 512 + e.val, by have := sh.isLt; have := b.isLt; have := e.isLt; omega⟩

/-- A sum over the edges, taken half by half, block by block. -/
theorem sum_edges {M : Type*} [AddCommMonoid M] (g : Fin 640000 → M) :
    ∑ x : Fin 640000, g x = ∑ sh : Fin 2, ∑ b : Fin 625, ∑ e : Fin 512, g (edge sh b e) := by
  have hb1 : ∀ (t : Fin 2) (l : Fin 320000), t.val * 320000 + l.val < 640000 := by
    intro t l; have := t.isLt; have := l.isLt; omega
  have hb2 : ∀ (t : Fin 625) (l : Fin 512), t.val * 512 + l.val < 320000 := by
    intro t l; have := t.isLt; have := l.isLt; omega
  -- 640000 = 2 · 320000: the two halves
  refine (Cert.Lib.sum_blocks (T := 2) (L := 320000) (by norm_num) g hb1).symm.trans ?_
  refine Finset.sum_congr rfl fun sh _ => ?_
  -- 320000 = 625 · 512: the blocks of one half
  refine (Cert.Lib.sum_blocks (T := 625) (L := 512) (by norm_num)
    (fun l : Fin 320000 => g ⟨sh.val * 320000 + l.val, hb1 sh l⟩) hb2).symm.trans ?_
  refine Finset.sum_congr rfl fun b _ => Finset.sum_congr rfl fun e _ => congrArg g (Fin.ext ?_)
  show sh.val * 320000 + (b.val * 512 + e.val) = sh.val * 320000 + b.val * 512 + e.val
  omega

end Cert.Gin

end
-- ==== Proof.LibRowProducts.lean ====
/-
  A plain matrix product read at one entry.

  For dimension numbers that contract the left operand's axis 1 with the right operand's axis 0, keep the left
  operand's axis 0 and the right operand's axis 1, and batch nothing, the operand indices at result entry (r, c) and
  contraction position k are (r, k) and (k, c). So both the accumulate-into-zero `tpu.matmul` and the host's
  `dot_general` are, at the ideal values, the entry's plain sum  ∑ q < K, l (r, q) · w (q, c)  over the shared axis:
  the same extended real whatever the number of rows of the left operand. This is the one fact that identifies a
  product computed a block of rows at a time with the product of the whole array.
-/
import Idealize.ShloMosaic.PureOps.Ideal.Laws
import Idealize.ShloMosaic.Lib.ValueIdx

noncomputable section

open scoped BigOperators

namespace Cert.Lib.RowProducts

open Idealize.ShloMosaic Idealize.ShloMosaic.ValueIdx

variable {n K c : Nat}

/-- Dimension numbers of a plain product [n, K] × [K, c] → [n, c]: contract left axis 1 with right axis 0, rows from
    the left, columns from the right, no batch axis. -/
structure Plain (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

private theorem val_congr {s : Shape} (j : s.Idx) (p q : Nat) (hp : p < s.rank) (hq : q < s.rank) (h : p = q) :
    (j ⟨p, hp⟩).val = (j ⟨q, hq⟩).val := by subst h; rfl

theorem Plain.rank_contr (h : Plain d) : d.contr.rank = 1 := by rw [d.rank_contr, h.lc]; rfl

theorem Plain.size_contr (h : Plain d) : d.contr.size ⟨0, by rw [h.rank_contr]; exact Nat.one_pos⟩ = K := by
  have := d.size_contr 0 (by rw [h.lc]; exact Nat.one_pos)
  rw [this]; simp only [h.lc]; rfl

/-- The left operand's row is the result's row. -/
theorem Plain.lhs_row (h : Plain d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem Plain.lhs_col (h : Plain d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem Plain.rhs_row (h : Plain d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem Plain.rhs_col (h : Plain d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, c). -/
theorem Plain.sum_eq (h : Plain d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  rw [← Equiv.sum_comp (contrEquiv1 d K h.rank_contr h.size_contr).symm]
  refine Finset.sum_congr rfl fun q _ => ?_
  have hk := contrEquiv1_symm_val d K h.rank_contr h.size_contr q
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values. -/
theorem Plain.matmul_zero_apply (h : Plain d) (prec : Option ContractPrecision)
    (l : FVec Ideal ⟨2, ![n, K]⟩ .f32) (w : FVec Ideal ⟨2, ![K, c]⟩ .f32) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem Plain.dotGeneral_apply (h : Plain d) (prec : Option ContractPrecision)
    (l : FVec Ideal ⟨2, ![n, K]⟩ .f32) (w : FVec Ideal ⟨2, ![K, c]⟩ .f32) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.RowProducts

end
-- ==== Proof.LibColProducts.lean ====
/-
  A matrix product that contracts the FIRST axis of both operands, read at one entry.

  For dimension numbers that contract the left operand's axis 0 with the right operand's axis 0, keep the left
  operand's axis 1 as the result's rows and the right operand's axis 1 as its columns, and batch nothing, the operand
  indices at result entry (r, c) and contraction position k are (k, r) and (k, c): the result is the transposed left
  operand times the right operand. So the accumulate-into-zero `tpu.matmul` and the host's `dot_general` are, at the
  ideal values, the entry's plain sum  ∑ q < K, l (q, r) · w (q, c)  over the shared first axis, whatever its extent K.
-/
import Idealize.ShloMosaic.PureOps.Ideal.Laws
import Idealize.ShloMosaic.Lib.ValueIdx

noncomputable section

open scoped BigOperators

namespace Cert.Lib.ColProducts

open Idealize.ShloMosaic Idealize.ShloMosaic.ValueIdx

variable {n K c : Nat}

/-- Dimension numbers of a product [K, n] × [K, c] → [n, c] over the shared first axis: contract left axis 0 with right
    axis 0, rows from the left operand's axis 1, columns from the right operand's axis 1, no batch axis. -/
structure TransposedLhs (d : DotDims ⟨2, ![K, n]⟩ ⟨2, ![K, c]⟩ ⟨2, ![n, c]⟩) : Prop where
  lc : d.lhsContracting = [0]
  rc : d.rhsContracting = [0]
  ln : d.lhsNonContracting = [1]
  rn : d.rhsNonContracting = [1]
  lb : d.lhsBatch = []
  rb : d.rhsBatch = []

variable {d : DotDims ⟨2, ![K, n]⟩ ⟨2, ![K, c]⟩ ⟨2, ![n, c]⟩}

private theorem val_congr {s : Shape} (j : s.Idx) (p q : Nat) (hp : p < s.rank) (hq : q < s.rank) (h : p = q) :
    (j ⟨p, hp⟩).val = (j ⟨q, hq⟩).val := by subst h; rfl

theorem TransposedLhs.rank_contr (h : TransposedLhs d) : d.contr.rank = 1 := by rw [d.rank_contr, h.lc]; rfl

theorem TransposedLhs.size_contr (h : TransposedLhs d) :
    d.contr.size ⟨0, by rw [h.rank_contr]; exact Nat.one_pos⟩ = K := by
  have := d.size_contr 0 (by rw [h.lc]; exact Nat.one_pos)
  rw [this]; simp only [h.lc]; rfl

/-- The left operand's row (its axis 0) is the contraction position. -/
theorem TransposedLhs.lhs_row (h : TransposedLhs d) (j : (⟨2, ![n, c]⟩ : Shape).Idx) (k : d.contr.Idx) :
    (d.lhsIdx j k 0).val = (k ⟨0, by rw [h.rank_contr]; exact Nat.one_pos⟩).val :=
  d.lhsIdx_val_of_single h.lc j k

/-- The left operand's column (its axis 1) is the result's row. -/
theorem TransposedLhs.lhs_col (h : TransposedLhs d) (j : (⟨2, ![n, c]⟩ : Shape).Idx) (k : d.contr.Idx) :
    (d.lhsIdx j k 1).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The right operand's row (its axis 0) is the contraction position. -/
theorem TransposedLhs.rhs_row (h : TransposedLhs d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column (its axis 1) is the result's column. -/
theorem TransposedLhs.rhs_col (h : TransposedLhs d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared first axis: ∑ q < K, l (q, r) · w (q, c). -/
theorem TransposedLhs.sum_eq (h : TransposedLhs d) (l : (⟨2, ![K, n]⟩ : Shape).Idx → EReal)
    (w : (⟨2, ![K, c]⟩ : Shape).Idx → EReal) (j : (⟨2, ![n, c]⟩ : Shape).Idx) :
    ∑ k : d.contr.Idx, l (d.lhsIdx j k) * w (d.rhsIdx j k) = ∑ q : Fin K, l (ix2 q (j 0)) * w (ix2 q (j 1)) := by
  rw [← Equiv.sum_comp (contrEquiv1 d K h.rank_contr h.size_contr).symm]
  refine Finset.sum_congr rfl fun q _ => ?_
  have hk := contrEquiv1_symm_val d K h.rank_contr h.size_contr q
  have e1 : d.lhsIdx j ((contrEquiv1 d K h.rank_contr h.size_contr).symm q) = ix2 q (j 0) := by
    funext a
    match a with
    | ⟨0, _⟩ => exact Fin.ext ((h.lhs_row j _).trans hk)
    | ⟨1, _⟩ => exact Fin.ext (h.lhs_col j _)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

variable {φ₁ φ₂ : FTy}

/-- `tpu.matmul` into the zero accumulator, at an entry, at the ideal values, whatever the operands' formats (an
    ideal value has none). -/
theorem TransposedLhs.matmul_zero_apply (h : TransposedLhs d) (prec : Option ContractPrecision)
    (l : FVec Ideal ⟨2, ![K, n]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 q (j 0)) * w (ix2 q (j 1)) :=
  (Ideal.matmul_constant_zero_apply d prec l w j).trans (h.sum_eq l w j)

/-- The same at an entry given by its coordinates (r, c'): ∑ q < K, l (q, r) · w (q, c'). -/
theorem TransposedLhs.matmul_zero_ix2 (h : TransposedLhs d) (prec : Option ContractPrecision)
    (l : FVec Ideal ⟨2, ![K, n]⟩ φ₁) (w : FVec Ideal ⟨2, ![K, c]⟩ φ₂) (r : Fin n) (c' : Fin c) :
    matmul (F := Ideal) d prec l w (constant ⟨2, ![n, c]⟩ .f32 0x00000000#32) (ix2 r c')
      = ∑ q : Fin K, l (ix2 q r) * w (ix2 q c') :=
  h.matmul_zero_apply prec l w (ix2 r c')

/-- The host's `dot_general`, at an entry, at the ideal values. -/
theorem TransposedLhs.dotGeneral_apply (h : TransposedLhs d) (prec : Option ContractPrecision)
    (l : FVec Ideal ⟨2, ![K, n]⟩ φ₁) (w : FVec Ideal ⟨2, ![K, c]⟩ φ₂) (j : (⟨2, ![n, c]⟩ : Shape).Idx) :
    Host.dotGeneral (F := Ideal) d prec l w j = ∑ q : Fin K, l (ix2 q (j 0)) * w (ix2 q (j 1)) :=
  (Ideal.dotGeneral_apply d prec .single l w j).trans (h.sum_eq l w j)

end Cert.Lib.ColProducts

end
-- ==== Proof.Payload.lean ====
/-
  One grid point's arithmetic, read at an entry.

  At a grid point the body holds a block of 512 sender words s(e) and 512 receiver words r(e), the padded node table
  X [10112 × 128], and the accumulator A [10112 × 128]. It forms the two selector matrices
      P(e, q) = [s(e) is the word of q],   R(e, n) = [r(e) is the word of n],
  gathers D = P · X (a [512 × 128] block), and stores A + Rᵀ · D. A change of float format is the identity on extended
  reals, so at an entry (n, f) the stored value is
      A(n, f) + ∑ e, R(e, n) · ∑ q, P(e, q) · X(q, f).
-/
import proofs.«430740_j24953759989866_1_alg».proof.Proof.Gen.KernelIdeal.Skeleton
import proofs.«430740_j24953759989866_1_alg».proof.Proof.Selector
import proofs.«430740_j24953759989866_1_alg».proof.Proof.LibRowProducts
import proofs.«430740_j24953759989866_1_alg».proof.Proof.LibColProducts
import Idealize.ShloMosaic.Lib.Pipeline.Value
import Idealize.ShloMosaic.Lib.ValueLayout
import Idealize.ShloMosaic.Lib.ValueIdx
import Idealize.ShloMosaic.PureOps.Ideal.Laws

noncomputable section

namespace Cert.Gin

open Idealize.ShloMosaic Idealize.ShloMosaic.ValueIdx Cert.KernelIdeal Cert.KernelIdeal.Gen

/-- The reset value is zero everywhere. -/
theorem pay1_apply (j : S10112x128.Idx) : k0_pay1 (F := Ideal) j = 0 := by
  unfold k0_pay1
  rw [shapeCast_self]
  exact Ideal.ofBits_zero_f32

/-- A column of words spread along the rows: the [1, 512, 1] block of words viewed [512, 1] and broadcast over 10112
    columns reads, at (e, q), the block's word e. -/
private theorem spread_words (v : Vec Ideal S1x512x1 .i32) (e : Fin 512) (q : Fin 10112) :
    broadcastTo S512x10112 (shapeCast S512x1 v shapeCasts_S1x512x1_S512x1) broadcasts_S512x1_S512x10112 (ix2 e q)
      = v (ix3 (0 : Fin 1) e (0 : Fin 1)) := by
  refine (broadcastTo_apply _ _ (ix2 e q) (ix2 e (0 : Fin 1)) fun a => ?_).trans ?_
  · match a with
    | ⟨0, _⟩ => rfl
    | ⟨1, _⟩ => rfl
  · exact shapeCast_1ab_ab_apply v _ e 0

/-- The row of column numbers spread along the rows: reads, at (e, q), the word of q. -/
private theorem spread_positions (e : Fin 512) (q : Fin 10112) :
    broadcastTo S512x10112 (iota .tc S1x10112 32 [1] iota_S1x10112_d1_w32) broadcasts_S1x10112_S512x10112 (ix2 e q)
      = BitVec.ofNat 32 q.val :=
  (broadcastTo_1b_ab_apply _ _ e q).trans (iota_single_apply .tc S1x10112 32 1 _ (ix2 (0 : Fin 1) q))

/-- An entry of a selector matrix: 1 when the block's word e is the word of column q, else 0, in whatever float format
    it is held. -/
private theorem selector_apply (v : Vec Ideal S1x512x1 .i32) (e : Fin 512) (q : Fin 10112) :
    (truncf .bf16 (sitofp .f32 (extui 32 (cmpi .eq
        (broadcastTo S512x10112 (shapeCast S512x1 v shapeCasts_S1x512x1_S512x1) broadcasts_S512x1_S512x10112)
        (broadcastTo S512x10112 (iota .tc S1x10112 32 [1] iota_S1x10112_d1_w32) broadcasts_S1x10112_S512x10112))
        natLt_1_32)) bitsLt_bf16_f32 : FVec Ideal S512x10112 .bf16) (ix2 e q)
      = sel (v (ix3 (0 : Fin 1) e (0 : Fin 1))) (BitVec.ofNat 32 q.val) :=
  Eq.trans (b := sel
      (broadcastTo S512x10112 (shapeCast S512x1 v shapeCasts_S1x512x1_S512x1) broadcasts_S512x1_S512x10112 (ix2 e q))
      (broadcastTo S512x10112 (iota .tc S1x10112 32 [1] iota_S1x10112_d1_w32) broadcasts_S1x10112_S512x10112 (ix2 e q)))
    rfl (congrArg₂ sel (spread_words v e q) (spread_positions e q))

/-- The accumulator update at entry (n, f). -/
theorem pay2_apply (v3 v5 : Vec Ideal S1x512x1 .i32) (v20 v26 : Vec Ideal S10112x128 .f32) (n : Fin 10112) (f : Fin 128) :
    k0_pay2 (F := Ideal) v3 v5 v20 v26 (ix2 n f)
      = v26 (ix2 n f) + ∑ e : Fin 512, sel (v5 (ix3 (0 : Fin 1) e (0 : Fin 1))) (BitVec.ofNat 32 n.val)
          * ∑ q : Fin 10112, sel (v3 (ix3 (0 : Fin 1) e (0 : Fin 1))) (BitVec.ofNat 32 q.val) * v20 (ix2 q f) := by
  unfold k0_pay2
  rw [shapeCast_self]
  refine (addf_apply _ _ _).trans (congrArg (v26 (ix2 n f) + ·) ?_)
  refine (Cert.Lib.ColProducts.TransposedLhs.matmul_zero_ix2 (φ₁ := .bf16) (φ₂ := .bf16)
    (d := dot_S512x10112_S512x128_S10112x128_0_0_1_1_n_n) ⟨rfl, rfl, rfl, rfl, rfl, rfl⟩ none _ _ n f).trans ?_
  refine Finset.sum_congr rfl fun e _ => congrArg₂ (· * ·) (selector_apply v5 e n) ?_
  refine (truncf_apply (ψ := .bf16) _ bitsLt_bf16_f32 (ix2 e f)).trans ?_
  refine ((Ideal.matmul_constant_zero_apply (φ₁ := .bf16) (φ₂ := .bf16)
      dot_S512x10112_S10112x128_S512x128_1_0_0_1_n_n none _ _ (ix2 e f)).trans
    (Cert.Lib.RowProducts.Plain.sum_eq (d := dot_S512x10112_S10112x128_S512x128_1_0_0_1_n_n)
      ⟨rfl, rfl, rfl, rfl, rfl, rfl⟩ _ _ (ix2 e f))).trans ?_
  refine Finset.sum_congr rfl fun q _ => congrArg₂ (· * ·) (selector_apply v3 e q) ?_
  exact (truncf_apply (ψ := .bf16) _ bitsLt_bf16_f32 (ix2 q f)).trans
    (congrFun (shapeCast_self v20 _) (ix2 q f))

/-- The block written out is the accumulator under a leading unit axis. -/
theorem pay3_apply (v : Vec Ideal S10112x128 .f32) (n : Fin 10112) (f : Fin 128) :
    k0_pay3 (F := Ideal) v (ix3 (0 : Fin 1) n f) = v (ix2 n f) := by
  unfold k0_pay3
  exact shapeCast_ab_1ab_apply v _ 0 n f

end Cert.Gin

end
-- ==== Proof.Blocks.lean ====
/-
  The input blocks a grid point sees, and the arrays the region finds, in terms of the program's arguments.

  Grid point t = 625 · sh + b (sh the half, b the block) reads rows 512 · b … 512 · b + 511 of half sh of the
  [2 × 320000 × 1] sender and receiver arrays, and the whole padded node table. Those arrays are the host's reshapes
  of rows 1 and 0 of the [2 × 640000] index array (edge 320000 · sh + k sits at (sh, k, 0)), and the node table padded
  with 112 zero rows.
-/
import proofs.«430740_j24953759989866_1_alg».proof.Proof.Gen.KernelIdeal.Frame.Runs
import proofs.«430740_j24953759989866_1_alg».proof.Proof.Selector
import Idealize.ShloMosaic.Lib.Pipeline.Value
import Idealize.ShloMosaic.Lib.ValueLayout
import Idealize.ShloMosaic.Lib.ValueIdx
import Idealize.ShloMosaic.Lib.KernelVsHost
import Idealize.ShloMosaic.Lib.StableHlo.Run

noncomputable section

namespace Cert.KernelIdeal.Acc

open Idealize.ShloMosaic Idealize.ShloMosaic.TcCoe Idealize.ShloMosaic.ValueIdx Idealize.SL.Sem
open Cert.KernelIdeal Cert.KernelIdeal.Gen Cert.Gin

variable (m : (ℓ : Loc nD τ sig) → Buf (Elt Ideal) ℓ)

/-- The sender block, the receiver block and the node table at a grid point, at their literal types. -/
abbrev sblk (c : Dev nD) (t : Fin cfg0.N) : Vec Ideal S1x512x1 .i32 := iblk m c 0 t
abbrev rblk (c : Dev nD) (t : Fin cfg0.N) : Vec Ideal S1x512x1 .i32 := iblk m c 1 t
abbrev nblk (c : Dev nD) (t : Fin cfg0.N) : Vec Ideal S10112x128 .f32 := iblk m c 2 t

/-- The sender and the receiver vectors: rows 1 and 0 of the index array, as vectors of 640000 words. -/
abbrev snd (c : Dev nD) : IVec S640000 32 :=
  shapeCast S640000 (extractStridedSlice S1x640000 ![1, 0] (m ((c.tc : Thread nD τ).loc main_arg1)) slices_S2x640000_S1x640000_1_0) shapeCasts_S1x640000_S640000
abbrev rcv (c : Dev nD) : IVec S640000 32 :=
  shapeCast S640000 (extractStridedSlice S1x640000 ![0, 0] (m ((c.tc : Thread nD τ).loc main_arg1)) slices_S2x640000_S1x640000_0_0) shapeCasts_S1x640000_S640000
/-- The node table. -/
abbrev node (c : Dev nD) : Vec Ideal S10000x128 .f32 := m ((c.tc : Thread nD τ).loc main_arg0)

/-- The half and the block of a grid point. -/
def halfOf (t : Fin cfg0.N) : Fin 2 := ⟨t.val / 625, by have h : t.val < 1250 := lt_of_lt_of_eq t.isLt N_0; omega⟩
def blockOf (t : Fin cfg0.N) : Fin 625 := ⟨t.val % 625, Nat.mod_lt _ (by decide)⟩

/-- The block indices of the three input windows at a grid point, decided over the 1250 points. -/
private theorem idx0 : ∀ t : Fin cfg0.N, win0_0.index t (0 : Fin 3) = t.val / 625 ∧ win0_0.index t (1 : Fin 3) = t.val % 625 ∧ win0_0.index t (2 : Fin 3) = 0 :=
  (by decide +kernel : ∀ t : Fin grid0.N, _)
private theorem idx1 : ∀ t : Fin cfg0.N, win0_1.index t (0 : Fin 3) = t.val / 625 ∧ win0_1.index t (1 : Fin 3) = t.val % 625 ∧ win0_1.index t (2 : Fin 3) = 0 :=
  (by decide +kernel : ∀ t : Fin grid0.N, _)
private theorem idx2 : ∀ t : Fin cfg0.N, win0_2.index t (0 : Fin 2) = 0 ∧ win0_2.index t (1 : Fin 2) = 0 :=
  (by decide +kernel : ∀ t : Fin grid0.N, _)

/-- Reading a window's block at a grid point: entry y of the block sits in the window's array, on each axis, at the
    block index times the block's extent plus y's coordinate. For the sender and the receiver windows that is
    (half, 512 · block + e, 0); for the node table, whose one block is the whole array, it is the entry itself. -/
private theorem sblk_read (c : Dev nD) (t : Fin cfg0.N) (e : Fin 512) (k : Fin 320000) (hk : k.val = (blockOf t).val * 512 + e.val) :
    sblk m c t (ix3 (0 : Fin 1) e (0 : Fin 1))
      = (V m c main_v5 : S2x320000x1.Idx → BitVec 32) (ix3 (halfOf t) k (0 : Fin 1)) := by
  obtain ⟨e0, e1, e2⟩ := idx0 t
  show iblk m c 0 t _ = _
  unfold iblk
  rw [View.read_apply]
  show V m c main_v5 _ = V m c main_v5 _
  congr 1
  funext a
  apply Fin.ext
  match a with
  | ⟨0, _⟩ => show win0_0.index t (0 : Fin 3) * 1 + 1 * 0 = t.val / 625; rw [e0]; omega
  | ⟨1, _⟩ => show win0_0.index t (1 : Fin 3) * 512 + 1 * e.val = k.val; rw [e1, hk]; show t.val % 625 * 512 + 1 * e.val = t.val % 625 * 512 + e.val; omega
  | ⟨2, _⟩ => show win0_0.index t (2 : Fin 3) * 1 + 1 * 0 = 0; rw [e2]

private theorem rblk_read (c : Dev nD) (t : Fin cfg0.N) (e : Fin 512) (k : Fin 320000) (hk : k.val = (blockOf t).val * 512 + e.val) :
    rblk m c t (ix3 (0 : Fin 1) e (0 : Fin 1))
      = (V m c main_v6 : S2x320000x1.Idx → BitVec 32) (ix3 (halfOf t) k (0 : Fin 1)) := by
  obtain ⟨e0, e1, e2⟩ := idx1 t
  show iblk m c 1 t _ = _
  unfold iblk
  rw [View.read_apply]
  show V m c main_v6 _ = V m c main_v6 _
  congr 1
  funext a
  apply Fin.ext
  match a with
  | ⟨0, _⟩ => show win0_1.index t (0 : Fin 3) * 1 + 1 * 0 = t.val / 625; rw [e0]; omega
  | ⟨1, _⟩ => show win0_1.index t (1 : Fin 3) * 512 + 1 * e.val = k.val; rw [e1, hk]; show t.val % 625 * 512 + 1 * e.val = t.val % 625 * 512 + e.val; omega
  | ⟨2, _⟩ => show win0_1.index t (2 : Fin 3) * 1 + 1 * 0 = 0; rw [e2]

private theorem nblk_read (c : Dev nD) (t : Fin cfg0.N) (q : Fin 10112) (f : Fin 128) :
    nblk m c t (ix2 q f) = (V m c main_v0 : S10112x128.Idx → EReal) (ix2 q f) := by
  obtain ⟨e0, e1⟩ := idx2 t
  show iblk m c 2 t _ = _
  unfold iblk
  rw [View.read_apply]
  show V m c main_v0 _ = V m c main_v0 _
  congr 1
  funext a
  apply Fin.ext
  match a with
  | ⟨0, _⟩ => show win0_2.index t (0 : Fin 2) * 10112 + 1 * q.val = q.val; rw [e0]; omega
  | ⟨1, _⟩ => show win0_2.index t (1 : Fin 2) * 128 + 1 * f.val = f.val; rw [e1]; omega

/-- The arrays the region finds, as the host operations before it compute them from the arguments: the sender and
    the receiver vectors re-shaped to [2 × 320000 × 1], and the node table padded with 112 rows of the converted
    integer zero. -/
private theorem V_v5 (c : Dev nD) : (V m c main_v5 : S2x320000x1.Idx → BitVec 32) = shapeCast S2x320000x1 (snd m c) shapeCasts_S640000_S2x320000x1 := by
  dsimp only [Gen.V, Gen.V0]
  simp only [Gen.hostOps0, Gen.hostOps0_1, Gen.hostOps0_2, List.flatten_cons, List.flatten_nil, List.append_nil, List.cons_append, List.nil_append]
  after_results
  rfl
private theorem V_v6 (c : Dev nD) : (V m c main_v6 : S2x320000x1.Idx → BitVec 32) = shapeCast S2x320000x1 (rcv m c) shapeCasts_S640000_S2x320000x1 := by
  dsimp only [Gen.V, Gen.V0]
  simp only [Gen.hostOps0, Gen.hostOps0_1, Gen.hostOps0_2, List.flatten_cons, List.flatten_nil, List.append_nil, List.cons_append, List.nil_append]
  after_results
  rfl
private theorem V_v0 (c : Dev nD) : (V m c main_v0 : S10112x128.Idx → EReal)
    = pad S10112x128 ![0, 0] ![112, 0] ![0, 0] (node m c) (sitofp (F := Ideal) .f32 (constantI S_ 32 0#32)) pads_S10000x128_S10112x128_01120_000 h_S_ := by
  dsimp only [Gen.V, Gen.V0]
  simp only [Gen.hostOps0, Gen.hostOps0_1, Gen.hostOps0_2, List.flatten_cons, List.flatten_nil, List.append_nil, List.cons_append, List.nil_append]
  after_results
  rfl

/-- The sender block at a grid point holds the senders of that block's edges. -/
theorem sblk_apply (c : Dev nD) (t : Fin cfg0.N) (e : Fin 512) :
    sblk m c t (ix3 (0 : Fin 1) e (0 : Fin 1)) = snd m c (ix1 (edge (halfOf t) (blockOf t) e)) := by
  have hb : (blockOf t).val < 625 := (blockOf t).isLt
  have he : e.val < 512 := e.isLt
  refine (sblk_read m c t e ⟨(blockOf t).val * 512 + e.val, by omega⟩ rfl).trans ?_
  refine (congrFun (V_v5 m c) _).trans ?_
  refine shapeCast_apply _ _ _ _ ?_
  rw [Shape.rowMajor_val_one, Shape.rowMajor_val_three]
  show (halfOf t).val * 320000 + (blockOf t).val * 512 + e.val
    = ((halfOf t).val * 320000 + ((blockOf t).val * 512 + e.val)) * 1 + 0
  omega

/-- The receiver block at a grid point holds the receivers of that block's edges. -/
theorem rblk_apply (c : Dev nD) (t : Fin cfg0.N) (e : Fin 512) :
    rblk m c t (ix3 (0 : Fin 1) e (0 : Fin 1)) = rcv m c (ix1 (edge (halfOf t) (blockOf t) e)) := by
  have hb : (blockOf t).val < 625 := (blockOf t).isLt
  have he : e.val < 512 := e.isLt
  refine (rblk_read m c t e ⟨(blockOf t).val * 512 + e.val, by omega⟩ rfl).trans ?_
  refine (congrFun (V_v6 m c) _).trans ?_
  refine shapeCast_apply _ _ _ _ ?_
  rw [Shape.rowMajor_val_one, Shape.rowMajor_val_three]
  show (halfOf t).val * 320000 + (blockOf t).val * 512 + e.val
    = ((halfOf t).val * 320000 + ((blockOf t).val * 512 + e.val)) * 1 + 0
  omega

/-- The node block at every grid point is the padded table: the node table on rows below 10000, zero on the 112 rows
    after them. -/
theorem nblk_apply (c : Dev nD) (t : Fin cfg0.N) (q : Fin 10112) (f : Fin 128) :
    nblk m c t (ix2 q f) = if h : q.val < 10000 then node m c (ix2 ⟨q.val, h⟩ f) else 0 := by
  refine (nblk_read m c t q f).trans ?_
  refine (congrFun (V_v0 m c) _).trans ?_
  by_cases h : q.val < 10000
  · rw [dif_pos h]
    exact pad_apply_of_inside _ _ _ _ _ _ _ (ix2 q f) (ix2 ⟨q.val, h⟩ f) (fun a => match a with
      | ⟨0, _⟩ => by show q.val = 0 + q.val * (0 + 1); omega
      | ⟨1, _⟩ => by show f.val = 0 + f.val * (0 + 1); omega)
  · rw [dif_neg h]
    refine (pad_apply_of_not_inside _ _ _ _ _ _ _ (ix2 q f) (0 : Fin 2) ?_).trans ?_
    · intro hin
      have h3 : (q.val - 0) / (0 + 1) < 10000 := hin.2.2
      rw [Nat.sub_zero, Nat.zero_add, Nat.div_one] at h3
      exact h h3
    · show ((((0#32 : BitVec 32).toInt : ℤ) : ℝ) : EReal) = 0
      rw [BitVec.toInt_zero, Int.cast_zero, EReal.coe_zero]

end Cert.KernelIdeal.Acc

end
-- ==== Proof.Accum.lean ====
/-
  The accumulator across the grid.

  Within a half the 625 grid points run in order; the first resets the accumulator and every point adds its own
  contribution, so after block b the accumulator holds, at every entry, the sum of the contributions of blocks 0 … b
  of that half, and the last block's output block holds the whole half's sum. By induction on the grid point.
-/
import proofs.«430740_j24953759989866_1_alg».proof.Proof.Pieces
import proofs.«430740_j24953759989866_1_alg».proof.Proof.Payload
import proofs.«430740_j24953759989866_1_alg».proof.Proof.Blocks

set_option maxRecDepth 16384

noncomputable section

namespace Cert.KernelIdeal.Acc

open Idealize.ShloMosaic Idealize.ShloMosaic.TcCoe Idealize.ShloMosaic.ValueIdx Idealize.SL.Sem
open Cert.KernelIdeal Cert.KernelIdeal.Gen Cert.Gin

variable (m : (ℓ : Loc nD τ sig) → Buf (Elt Ideal) ℓ)

/-- What grid point t adds to the accumulator's entry (n, f): over its 512 edges e, the receiver selector at n times
    the gathered sender row's entry f. -/
def addend (c : Dev nD) (t : Fin cfg0.N) (n : Fin 10112) (f : Fin 128) : EReal :=
  ∑ e : Fin 512, sel (rblk m c t (ix3 (0 : Fin 1) e (0 : Fin 1))) (BitVec.ofNat 32 n.val)
    * ∑ q : Fin 10112, sel (sblk m c t (ix3 (0 : Fin 1) e (0 : Fin 1))) (BitVec.ofNat 32 q.val) * nblk m c t (ix2 q f)

/-- The same for a point given by its number (zero past the grid). -/
def addendN (c : Dev nD) (t : ℕ) (n : Fin 10112) (f : Fin 128) : EReal :=
  if h : t < cfg0.N then addend m c ⟨t, h⟩ n f else 0

/-- A half's first point resets the accumulator and adds: the accumulator holds that point's contribution alone. -/
private theorem acc_first (c : Dev nD) (t : ℕ) (h : t < cfg0.N) (h0 : t % 625 = 0) (n : Fin 10112) (f : Fin 128) :
    (outsAt0 m c t h).2 (ix2 n f) = addend m c ⟨t, h⟩ n f := by
  have h1 : ¬t % 625 = 624 := by omega
  rw [outsAt0_A m c ⟨t, h⟩ h0 h1]; dsimp only
  refine (congrFun (sout_A (F := Ideal) c (grid0.coords ⟨t, h⟩) (ms0_0 ⟨t, h⟩) (hs0_0 ⟨t, h⟩) (ms0_1 ⟨t, h⟩) (hs0_1 ⟨t, h⟩)
    (ms0_2 ⟨t, h⟩) (hs0_2 ⟨t, h⟩) (ms0_3 ⟨t, h⟩) (hs0_3 ⟨t, h⟩) scM0_0 (Memref.isWhole_whole _) _ _
    (iblk m c 0 ⟨t, h⟩) (iblk m c 1 ⟨t, h⟩) (iblk m c 2 ⟨t, h⟩)) (ix2 n f)).trans ?_
  refine (pay2_apply (iblk m c 0 ⟨t, h⟩) (iblk m c 1 ⟨t, h⟩) (iblk m c 2 ⟨t, h⟩) (k0_pay1 (F := Ideal)) n f).trans ?_
  rw [pay1_apply, zero_add]
  rfl

/-- Every later point of a half adds its contribution to what the point before left. -/
private theorem acc_next (c : Dev nD) (t : ℕ) (h : t + 1 < cfg0.N) (h0 : ¬(t + 1) % 625 = 0) (n : Fin 10112) (f : Fin 128) :
    (outsAt0 m c (t + 1) h).2 (ix2 n f)
      = (outsAt0 m c t (Nat.lt_of_succ_lt h)).2 (ix2 n f) + addend m c ⟨t + 1, h⟩ n f := by
  by_cases h1 : (t + 1) % 625 = 624
  · rw [outsAt0_C m c ⟨t + 1, h⟩ h0 h1]; dsimp only
    refine (congrFun (sout_C (F := Ideal) c (grid0.coords ⟨t + 1, h⟩) (ms0_0 ⟨t + 1, h⟩) (hs0_0 ⟨t + 1, h⟩) (ms0_1 ⟨t + 1, h⟩) (hs0_1 ⟨t + 1, h⟩)
      (ms0_2 ⟨t + 1, h⟩) (hs0_2 ⟨t + 1, h⟩) (ms0_3 ⟨t + 1, h⟩) (hs0_3 ⟨t + 1, h⟩) scM0_0 (Memref.isWhole_whole _) _ _
      (iblk m c 0 ⟨t + 1, h⟩) (iblk m c 1 ⟨t + 1, h⟩) (iblk m c 2 ⟨t + 1, h⟩) (outsAt0 m c t (Nat.lt_of_succ_lt h)).2) (ix2 n f)).trans ?_
    exact pay2_apply (iblk m c 0 ⟨t + 1, h⟩) (iblk m c 1 ⟨t + 1, h⟩) (iblk m c 2 ⟨t + 1, h⟩) (outsAt0 m c t (Nat.lt_of_succ_lt h)).2 n f
  · rw [outsAt0_B m c ⟨t + 1, h⟩ h0 h1]; dsimp only
    refine (congrFun (sout_B (F := Ideal) c (grid0.coords ⟨t + 1, h⟩) (ms0_0 ⟨t + 1, h⟩) (hs0_0 ⟨t + 1, h⟩) (ms0_1 ⟨t + 1, h⟩) (hs0_1 ⟨t + 1, h⟩)
      (ms0_2 ⟨t + 1, h⟩) (hs0_2 ⟨t + 1, h⟩) (ms0_3 ⟨t + 1, h⟩) (hs0_3 ⟨t + 1, h⟩) scM0_0 (Memref.isWhole_whole _) _ _
      (iblk m c 0 ⟨t + 1, h⟩) (iblk m c 1 ⟨t + 1, h⟩) (iblk m c 2 ⟨t + 1, h⟩) (outsAt0 m c t (Nat.lt_of_succ_lt h)).2) (ix2 n f)).trans ?_
    exact pay2_apply (iblk m c 0 ⟨t + 1, h⟩) (iblk m c 1 ⟨t + 1, h⟩) (iblk m c 2 ⟨t + 1, h⟩) (outsAt0 m c t (Nat.lt_of_succ_lt h)).2 n f

/-- The sum over a half's blocks up to its first is the first block's contribution. -/
private theorem sum_first (c : Dev nD) (t : ℕ) (h : t < cfg0.N) (h0 : t % 625 = 0) (n : Fin 10112) (f : Fin 128) :
    ∑ j ∈ Finset.range (t % 625 + 1), addendN m c (t - t % 625 + j) n f = addend m c ⟨t, h⟩ n f := by
  rw [h0]
  simp only [Nat.zero_add, Finset.sum_range_one, Nat.sub_zero, Nat.add_zero]
  unfold addendN
  rw [dif_pos h]

/-- The sum over a half's blocks up to a later one is the sum up to the block before plus that block's contribution. -/
private theorem sum_next (c : Dev nD) (t : ℕ) (h : t + 1 < cfg0.N) (h0 : ¬(t + 1) % 625 = 0) (n : Fin 10112) (f : Fin 128) :
    ∑ j ∈ Finset.range ((t + 1) % 625 + 1), addendN m c (t + 1 - (t + 1) % 625 + j) n f
      = ∑ j ∈ Finset.range (t % 625 + 1), addendN m c (t - t % 625 + j) n f + addend m c ⟨t + 1, h⟩ n f := by
  have e1 : (t + 1) % 625 = t % 625 + 1 := by omega
  have e2 : t + 1 - (t % 625 + 1) = t - t % 625 := by omega
  have e3 : t - t % 625 + (t % 625 + 1) = t + 1 := by omega
  have e4 : addendN m c (t + 1) n f = addend m c ⟨t + 1, h⟩ n f := by
    unfold addendN
    rw [dif_pos h]
  rw [e1, Finset.sum_range_succ, e2, e3, e4]

/-- After point t the accumulator holds the contributions of its half's blocks up to t's. -/
theorem scratch_eq (c : Dev nD) : ∀ (t : ℕ) (h : t < cfg0.N) (n : Fin 10112) (f : Fin 128),
    (outsAt0 m c t h).2 (ix2 n f) = ∑ j ∈ Finset.range (t % 625 + 1), addendN m c (t - t % 625 + j) n f := by
  intro t
  induction t with
  | zero =>
    intro h n f
    rw [acc_first m c 0 h rfl n f, sum_first m c 0 h rfl n f]
  | succ t ih =>
    intro h n f
    by_cases h0 : (t + 1) % 625 = 0
    · rw [acc_first m c (t + 1) h h0 n f, sum_first m c (t + 1) h h0 n f]
    · rw [acc_next m c t h h0 n f, sum_next m c t h h0 n f, ih (Nat.lt_of_succ_lt h) n f]

/-- At a half's last point the output block holds the whole half's contributions. -/
theorem out_eq (c : Dev nD) (t : ℕ) (h : t < cfg0.N) (h624 : t % 625 = 624) (n : Fin 10112) (f : Fin 128) :
    (outsAt0 m c t h).1 (ix3 (0 : Fin 1) n f) = ∑ j ∈ Finset.range 625, addendN m c (t - 624 + j) n f := by
  have h0 : ¬t % 625 = 0 := by omega
  have e : (outsAt0 m c t h).1 (ix3 (0 : Fin 1) n f) = (outsAt0 m c t h).2 (ix2 n f) := by
    rw [outsAt0_C m c ⟨t, h⟩ h0 h624]; dsimp only
    refine (congrFun (out_C (F := Ideal) c (grid0.coords ⟨t, h⟩) (ms0_0 ⟨t, h⟩) (hs0_0 ⟨t, h⟩) (ms0_1 ⟨t, h⟩) (hs0_1 ⟨t, h⟩)
      (ms0_2 ⟨t, h⟩) (hs0_2 ⟨t, h⟩) (ms0_3 ⟨t, h⟩) (hs0_3 ⟨t, h⟩) scM0_0 (Memref.isWhole_whole _) _ _
      (iblk m c 0 ⟨t, h⟩) (iblk m c 1 ⟨t, h⟩) (iblk m c 2 ⟨t, h⟩)
      (outsAt0 m c (t - 1) (Nat.lt_of_le_of_lt (Nat.sub_le _ _) h)).2) (ix3 (0 : Fin 1) n f)).trans ?_
    refine (pay3_apply _ n f).trans ?_
    exact (congrFun (sout_C (F := Ideal) c (grid0.coords ⟨t, h⟩) (ms0_0 ⟨t, h⟩) (hs0_0 ⟨t, h⟩) (ms0_1 ⟨t, h⟩) (hs0_1 ⟨t, h⟩)
      (ms0_2 ⟨t, h⟩) (hs0_2 ⟨t, h⟩) (ms0_3 ⟨t, h⟩) (hs0_3 ⟨t, h⟩) scM0_0 (Memref.isWhole_whole _) _ _
      (iblk m c 0 ⟨t, h⟩) (iblk m c 1 ⟨t, h⟩) (iblk m c 2 ⟨t, h⟩)
      (outsAt0 m c (t - 1) (Nat.lt_of_le_of_lt (Nat.sub_le _ _) h)).2) (ix2 n f)).symm
  rw [e, scratch_eq m c t h n f, h624]

end Cert.KernelIdeal.Acc

end
-- ==== Proof.Final.lean ====
/-
  The kernel's output array after the region.

  The output window's block at half sh is slab sh of the [2 × 10112 × 128] array, written back once, at the half's last
  grid point. The two slabs tile the array, so after the region slab sh holds half sh's accumulated contributions.
-/
import proofs.«430740_j24953759989866_1_alg».proof.Proof.Accum

set_option maxRecDepth 16384

noncomputable section

namespace Cert.KernelIdeal.Acc

open Idealize.ShloMosaic Idealize.ShloMosaic.TcCoe Idealize.ShloMosaic.ValueIdx Idealize.SL.Sem
open Idealize.ShloMosaic.Pipeline (Dat)
open Cert.KernelIdeal Cert.KernelIdeal.Gen Cert.Gin

variable (m : (ℓ : Loc nD τ sig) → Buf (Elt Ideal) ℓ)

/-- The partial sums: entry (sh, n, f) is the sum of the contributions of half sh's 625 grid points at (n, f). -/
def partials (c : Dev nD) : Vec Ideal S2x10112x128 .f32 := fun i =>
  ∑ j ∈ Finset.range 625, addendN m c ((i 0).val * 625 + j) ⟨(i 1).val, (i 1).isLt⟩ ⟨(i 2).val, (i 2).isLt⟩

/-- The partial sums at an entry given by its coordinates. -/
theorem partials_apply (c : Dev nD) (sh : Fin 2) (n : Fin 10112) (f : Fin 128) :
    partials m c (ix3 sh n f) = ∑ j ∈ Finset.range 625, addendN m c (sh.val * 625 + j) n f := rfl

/-- The output window's block index at grid point t is (t / 625, 0, 0): the half's number, decided over the 1250 points. -/
private theorem out_index : ∀ t : Fin cfg0.N,
    win0_3.index t (0 : Fin 3) = t.val / 625 ∧ win0_3.index t (1 : Fin 3) = 0 ∧ win0_3.index t (2 : Fin 3) = 0 :=
  (by decide +kernel : ∀ t : Fin grid0.N, _)

/-- What a half's last point t (t ≡ 624 mod 625) writes back is slab t / 625 of the partial sums: entry (0, n, f) of the
    output block is the sum of the contributions of the points t - 624 … t, and t - 624 = (t / 625) · 625; the block's
    entry (0, n, f) sits in the array at (t / 625, n, f). -/
private theorem out_flushed_eq (c : Dev nD) (t : Fin cfg0.N) (hf : (cfg0.win 3).flush t = true) :
    (dats m 0 c).flushed 3 t = ((cfg0.win 3).blk t).view.read (Elt Ideal) (partials m c) := by
  have hN : t.val < 1250 := lt_of_lt_of_eq t.isLt (show cfg0.N = 1250 from N_0)
  have h624 : t.val % 625 = 624 := (flush0_3 t).mp hf
  obtain ⟨e0, e1, e2⟩ := out_index t
  funext y
  show (cfg0.win 3).cut (grid0.coords t) ((dats m 0 c).after 3 t) y = _
  rw [after0_3]
  have hy0 : (y 0).val < 1 := (y 0).isLt
  have hy1 : (y 1).val < 10112 := (y 1).isLt
  have hy2 : (y 2).val < 128 := (y 2).isLt
  have hsh : t.val / 625 < 2 := by omega
  -- the written block is all of the output block: its entry y is the output block's entry (0, y 1, y 2)
  have hL : (cfg0.win 3).cut (grid0.coords t) (outsAt0 m c t.val t.isLt).1 y
      = (outsAt0 m c t.val t.isLt).1 (ix3 (0 : Fin 1) ⟨(y 1).val, hy1⟩ ⟨(y 2).val, hy2⟩) := by
    have hx : ((cfg0.win 3).xinj (grid0.coords t) y : S1x10112x128.Idx)
        = ix3 (0 : Fin 1) ⟨(y 1).val, hy1⟩ ⟨(y 2).val, hy2⟩ := by
      funext a
      apply Fin.ext
      match a with
      | ⟨0, _⟩ => show (y 0).val = 0; omega
      | ⟨1, _⟩ => rfl
      | ⟨2, _⟩ => rfl
    exact congrArg (outsAt0 m c t.val t.isLt).1 hx
  -- and it sits in the array at (t / 625, y 1, y 2): block index times block size plus the entry's own coordinate
  have hE : ((cfg0.win 3).blk t).view.emb y
      = ix3 (⟨t.val / 625, hsh⟩ : Fin 2) ⟨(y 1).val, hy1⟩ ⟨(y 2).val, hy2⟩ := by
    funext a
    apply Fin.ext
    match a with
    | ⟨0, _⟩ => show win0_3.index t (0 : Fin 3) * 1 + 1 * (y 0).val = t.val / 625; omega
    | ⟨1, _⟩ => show win0_3.index t (1 : Fin 3) * 10112 + 1 * (y 1).val = (y 1).val; omega
    | ⟨2, _⟩ => show win0_3.index t (2 : Fin 3) * 128 + 1 * (y 2).val = (y 2).val; omega
  refine (hL.trans (out_eq m c t.val t.isLt h624 _ _)).trans ?_
  show _ = partials m c (((cfg0.win 3).blk t).view.emb y)
  rw [hE, partials_apply]
  refine Finset.sum_congr rfl fun j _ => ?_
  have hb : t.val - 624 = t.val / 625 * 625 := by omega
  rw [hb]

/-- An entry (sh, n, f) of the array lies in the block of every grid point of half sh: that block is slab sh. -/
private theorem out_mem_blk (t : Fin cfg0.N) (i : S2x10112x128.Idx) (hi : t.val / 625 = (i 0).val) :
    i ∈ ((cfg0.win 3).blk t).view.set := by
  obtain ⟨e0, e1, e2⟩ := out_index t
  have h0 : (i 0 : Nat) < 2 := (i 0).isLt
  have h1 : (i 1 : Nat) < 10112 := (i 1).isLt
  have h2 : (i 2 : Nat) < 128 := (i 2).isLt
  show i ∈ ((View.whole main_v7).slice (win0_3.rect t)).set
  rw [View.set_slice_whole, Rect.mem_set_unit]
  intro a
  match a with
  | ⟨0, _⟩ =>
    show win0_3.index t (0 : Fin 3) * 1 ≤ (i 0 : Nat) ∧ (i 0 : Nat) < win0_3.index t (0 : Fin 3) * 1 + 1
    rw [e0]; omega
  | ⟨1, _⟩ =>
    show win0_3.index t (1 : Fin 3) * 10112 ≤ (i 1 : Nat) ∧ (i 1 : Nat) < win0_3.index t (1 : Fin 3) * 10112 + 10112
    rw [e1]; omega
  | ⟨2, _⟩ =>
    show win0_3.index t (2 : Fin 3) * 128 ≤ (i 2 : Nat) ∧ (i 2 : Nat) < win0_3.index t (2 : Fin 3) * 128 + 128
    rw [e2]; omega

/-- The two slabs tile the array: entry (sh, n, f) lies in the block written back at half sh's last point,
    sh · 625 + 624. -/
private theorem out_cover (i : S2x10112x128.Idx) :
    ∃ t : Fin cfg0.N, (cfg0.win 3).flush t = true ∧ i ∈ ((cfg0.win 3).blk t).view.set := by
  have h0 : (i 0 : Nat) < 2 := (i 0).isLt
  have ht : (i 0 : Nat) * 625 + 624 < cfg0.N :=
    lt_of_lt_of_eq (by omega : (i 0 : Nat) * 625 + 624 < 1250) (show 1250 = cfg0.N from N_0.symm)
  refine ⟨⟨(i 0 : Nat) * 625 + 624, ht⟩, (flush0_3 _).mpr ?_, out_mem_blk _ i ?_⟩
  · show ((i 0 : Nat) * 625 + 624) % 625 = 624; omega
  · show ((i 0 : Nat) * 625 + 624) / 625 = (i 0 : Nat); omega

/-- After the region the output array holds the partial sums. -/
theorem final_out (c : Dev nD) : (dats m 0 c).arrAt 3 cfg0.N = partials m c :=
  (dats m 0 c).arrAt_eq_of_cover 3 (partials m c) (out_flushed_eq m c) out_cover

end Cert.KernelIdeal.Acc

end
-- ==== Proof.Tail.lean ====
/-
  The kernel program's run, read through the host lines after the region.

  After the region the host adds the two slabs of the output array, keeps the first 10000 rows, and adds that to
  (1 + eps) · node. The frame run leaves the output array at what the region wrote and every other buffer at what these
  lines compute from it, so the program's result is that expression of the arguments and the output array.
-/
import proofs.«430740_j24953759989866_1_alg».proof.Proof.Gen.KernelIdeal.Frame
import Idealize.ShloMosaic.Lib.Pipeline.Value
import Idealize.ShloMosaic.Lib.StableHlo.Run

set_option maxRecDepth 16384

noncomputable section

namespace Cert.KernelIdeal.Acc

open Idealize.ShloMosaic Idealize.ShloMosaic.TcCoe Idealize.SL.Sem
open Idealize.ShloMosaic.Pipeline (Dat)
open Cert.KernelIdeal Cert.KernelIdeal.Gen

variable {F : FTy → Type} [FloatOps F]

/-- The neighbour sums from the output array: the two slabs added, the first 10000 rows kept. -/
def nuOf (O : Vec F S2x10112x128 .f32) : Vec F S10000x128 .f32 :=
  extractStridedSlice S10000x128 ![0, 0]
    (addf (shapeCast S10112x128 (extractStridedSlice S1x10112x128 ![0, 0, 0] O slices_S2x10112x128_S1x10112x128_0_0_0) shapeCasts_S1x10112x128_S10112x128)
      (shapeCast S10112x128 (extractStridedSlice S1x10112x128 ![1, 0, 0] O slices_S2x10112x128_S1x10112x128_1_0_0) shapeCasts_S1x10112x128_S10112x128))
    slices_S10112x128_S10000x128_0_0

/-- The combine: (1 + eps) · node + the neighbour sums. -/
def combine (x0 : Vec F S10000x128 .f32) (x2 : Vec F S_ .f32) (nu : Vec F S10000x128 .f32) : Vec F S10000x128 .f32 :=
  addf (mulf (broadcastInDim S10000x128 ![] bcast_S_S10000x128 (addf (constant S_ .f32 0x3F800000#32) x2)) x0) nu

variable (m : (ℓ : Loc nD τ sig) → Buf (Elt F) ℓ) (ρ : Dev nD → PrngReg)

/-- What the result buffer holds after the host lines that follow the region, started from the memory the region leaves
    (the output array at what the region wrote, every other buffer as the region found it): the lines' functions composed.
    The node features and eps are read at buffers no line before or after the region writes, so they are the launch
    contents; the two slabs are read off the output array. -/
theorem tail_v17 (c : Dev nD) :
    Pipeline.afterTail₀ cfgs (dats m) 0 (V0 m) [hostOps1] c main_v17
      = combine (m ((c.tc : Thread nD τ).loc main_arg0)) (m ((c.tc : Thread nD τ).loc main_arg2)) (nuOf ((dats m 0 c).arrAt 3 cfg0.N)) := by
  -- the node features: no window's array, and untouched before the region
  have h0 : Pipeline.withArrays (cfgs 0).spec c (V0 m c) (fun w => (dats m 0 c).arrAt w (cfgs 0).N) (Proc.devRef .tc main_arg0)
      = m ((c.tc : Thread nD τ).loc main_arg0) :=
    (Pipeline.withArrays_of_ne _ c (V0 m c) _ main_arg0 (by exact (by decide : ∀ w, Pipeline.arrRef spec0 w ≠ main_arg0))).trans (V_main_arg0 m c)
  -- eps: likewise
  have h2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  -- the output array: window 3's, at what the region leaves in it
  have h7 : Pipeline.withArrays (cfgs 0).spec c (V0 m c) (fun w => (dats m 0 c).arrAt w (cfgs 0).N) (Proc.devRef .tc main_v7)
      = (dats m 0 c).arrAt 3 cfg0.N :=
    Pipeline.withArrays_arr spec0 launch0.win.arr_inj c _ _ 3
  unfold Pipeline.afterTail₀
  show StableHlo.after hostOps1 _ (Proc.devRef .tc main_v17) = _
  after_results
  rw [h0, h2, h7]
  rfl

/-- Every weakly fair execution of the program terminates with the result at the combine of the arguments and the
    neighbour sums of the output array the region leaves, and the arguments unchanged. -/
theorem run_tail : θ_run defs (onTc (τ := τ) (main (F := F))) ⟨m, fun _ => 0, ρ⟩ fun r => ∀ c : Dev nD,
      r.2.mem ((c.tc : Thread nD τ).loc main_v17)
        = combine (m ((c.tc : Thread nD τ).loc main_arg0)) (m ((c.tc : Thread nD τ).loc main_arg2)) (nuOf ((dats m 0 c).arrAt 3 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  -- the frame run's post, read at the result buffer and at the three arguments (none is a window's array)
  (θ_run defs _ _).mono (fun r h c =>
    ⟨((h c).2 main_v17 (Pipeline.mem_restRefs_of main_v17 (by decide) (by decide))).trans (tail_v17 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Acc

end
-- ==== Proof.LibScatterGather.lean ====
/-
  A scatter that adds rows into a table, and a take from a vector, read at an index.

  `jax.ops.segment_sum(u, seg, num_segments = N)` over n update rows is a `stablehlo.scatter` with an `add` body whose
  scatter indices are the [n × 1] column of segment numbers: the table's axis 0 is the inserted, scatter-indexed axis
  (and, for a rank-2 table, its axis 1 is the update's one window axis), and the index vector lies on axis 1 of the
  scatter indices. At the extended reals its entry (v, j) is the table's entry plus the sum of the update entries
  (e, j) over the rows e whose segment number, read signed, is v; a row whose number is not a row of the table is
  dropped. `vec[idx]` over a vector of length N and n positions is the `stablehlo.gather` with the same index column,
  the vector's one axis collapsed and start-indexed: entry p is the vector at position p's index read signed and
  clamped into 0 … N − 1.
-/
import Idealize.ShloMosaic.Lib.ValueIdx
import Idealize.ShloMosaic.PureOps.ShapeOps
import Idealize.ShloMosaic.PureOps.Dims
import Idealize.ShloMosaic.PureOps.Contract
import Idealize.ShloMosaic.PureOps.Ideal

noncomputable section

namespace Cert.Lib

open Idealize.ShloMosaic Idealize.ShloMosaic.ValueIdx

/-- WHERE AN UPDATE LANDS. Update index `j` lands at operand index `i` exactly when on every operand axis the start
    (read signed) plus the window coordinate is `i`'s coordinate; a sum outside the operand lands nowhere. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have h2 := h a
      omega
    · intro hf
      funext a
      apply Fin.ext
      have h1 := hf a
      show (d.start j idx a + (d.window j a : ℤ)).toNat = (i a).val
      omega
  · rename_i h
    constructor
    · intro hf
      exact absurd hf (by simp)
    · intro hf
      exfalso
      apply h
      intro a
      have h1 := hf a
      have h2 := (i a).isLt
      omega

/-- A rank-1 index set is its one coordinate's range. -/
def idxFin1 {n : Nat} : (⟨1, ![n]⟩ : Shape).Idx ≃ Fin n where
  toFun i := i 0
  invFun a := ix1 a
  left_inv i := (eq_ix1 i).symm
  right_inv _ := rfl

/-- The start of update (e, c)'s window on the table's axis 0 is row e's scatter index read signed. -/
theorem rows_start0 {N C n w : Nat} (d : ScatterDims ⟨2, ![N, C]⟩ ⟨2, ![n, 1]⟩ ⟨2, ![n, C]⟩)
    (huw : d.updateWindowDims = [1]) (hsd : d.scatterDimsToOperandDims = [0]) (hivd : d.indexVectorDim = 1)
    (idx : IVec ⟨2, ![n, 1]⟩ w) (e : Fin n) (c : Fin C) :
    d.start (ix2 e c) idx 0 = (idx (ix2 e (0 : Fin 1))).toInt := by
  -- the update's axis 1 is its window axis, so each of its scatter axes is axis 0
  have hAll : ∀ y ∈ d.uScatter, y = 0 := by
    intro y hy
    have h1 : y ∉ d.updateWindowDims := by have h0 := (List.mem_filter.1 hy).2; simpa using h0
    rw [huw] at h1
    have h2 : y ≠ 1 := fun e => h1 (List.mem_singleton.2 e)
    apply Fin.ext
    have h3 : y.val ≠ 1 := fun e => h2 (Fin.ext e)
    have := y.isLt
    show y.val = 0
    change y.val < 2 at this
    omega
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 2) d.scatterDimsToOperandDims = 0
    rw [hsd]; simp

/-- Update (e, c) lands at entry (v, j) of the table exactly when row e's scatter index, read signed, is v and its
    column c is j: axis 0 of the table is inserted (start only), axis 1 carries the window coordinate (no start). -/
theorem rows_lands {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (c : Fin C) (v : Fin N) (j : Fin C) :
    d.resultIdx? (ix2 e c) idx = some (ix2 v j) ↔ (idx (ix2 e (0 : Fin 1))).toInt = (v.val : ℤ) ∧ c = j := by
  rw [resultIdx?_eq_some_iff]
  have hk0 : (0 : Fin 2) ∉ d.sKept := by
    intro h
    have h0 := (List.mem_filter.1 h).2
    rw [hiw] at h0
    simp at h0
  have hk1 : (1 : Fin 2) ∈ d.sKept := by
    apply List.mem_filter.2
    refine ⟨List.mem_finRange _, ?_⟩
    rw [hiw]
    simp
  have hw0 : d.window (ix2 e c) 0 = 0 := by unfold ScatterDims.window; rw [dif_neg hk0]
  have hwAll : ∀ y ∈ d.updateWindowDims, y = 1 := by
    intro y hy; rw [huw] at hy; exact List.mem_singleton.1 hy
  have hw1 : d.window (ix2 e c) 1 = c.val := by
    unfold ScatterDims.window
    rw [dif_pos hk1, hwAll _ (List.getElem_mem _)]
    rfl
  have hm1 : (1 : Fin 2) ∉ d.scatterDimsToOperandDims := by rw [hsd]; simp
  have hs1 : d.start (ix2 e c) idx 1 = 0 := by unfold ScatterDims.start; rw [dif_neg hm1]
  constructor
  · intro h
    have h0 : d.start (ix2 e c) idx 0 + (d.window (ix2 e c) 0 : ℤ) = (v.val : ℤ) := h 0
    have h1 : d.start (ix2 e c) idx 1 + (d.window (ix2 e c) 1 : ℤ) = (j.val : ℤ) := h 1
    rw [rows_start0 d huw hsd hivd, hw0] at h0
    rw [hs1, hw1] at h1
    refine ⟨by simpa using h0, ?_⟩
    apply Fin.ext
    have h2 : (c.val : ℤ) = (j.val : ℤ) := by simpa using h1
    exact_mod_cast h2
  · rintro ⟨h, rfl⟩ a
    match a with
    | ⟨0, _⟩ =>
      show d.start (ix2 e c) idx 0 + (d.window (ix2 e c) 0 : ℤ) = (v.val : ℤ)
      rw [rows_start0 d huw hsd hivd, hw0, h]
      simp
    | ⟨1, _⟩ =>
      show d.start (ix2 e c) idx 1 + (d.window (ix2 e c) 1 : ℤ) = (c.val : ℤ)
      rw [hs1, hw1]
      simp

/-- ROWS ADDED INTO A TABLE. An accumulating scatter into an [N × C] table of n update rows [n × C] at an [n × 1]
    column of row numbers (`huw` … `hivd`: the printed dimension numbers, each by `rfl`), at the extended reals:
    entry (v, j) is the table's plus the sum over the update rows e whose number, read signed, is v, of the update's
    entry (e, j). -/
theorem scatterAdd_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (v : Fin N) (j : Fin C) :
    Host.scatterAdd (F := Ideal) (φ := .f32) d x idx upd (ix2 v j)
      = x (ix2 v j) + ∑ e : Fin n, if (idx (ix2 e (0 : Fin 1))).toInt = (v.val : ℤ) then upd (ix2 e j) else 0 := by
  unfold Host.scatterAdd
  rw [Ideal.hostScatterAdd_def]
  unfold Ideal.hostScatterAdd
  congr 1
  -- the filtered sum as a sum over all update entries, row by row
  rw [Finset.sum_filter, sum_idx2]
  refine Finset.sum_congr rfl (fun e _ => ?_)
  by_cases hc : (idx (ix2 e (0 : Fin 1))).toInt = (v.val : ℤ)
  · -- a row whose number is v gives its entry in column j and nothing else
    rw [if_pos hc, Finset.sum_eq_single j]
    · rw [if_pos ((rows_lands d huw hiw hsd hivd idx e j v j).2 ⟨hc, rfl⟩)]
    · intro c _ hcj
      rw [if_neg (fun h => hcj ((rows_lands d huw hiw hsd hivd idx e c v j).1 h).2)]
    · intro h
      exact absurd (Finset.mem_univ _) h
  · -- a row whose number is not v gives nothing
    rw [if_neg hc]
    apply Finset.sum_eq_zero
    intro c _
    rw [if_neg (fun h => hc ((rows_lands d huw hiw hsd hivd idx e c v j).1 h).1)]

/-- The start of update e's window on the vector's axis is its scatter index read signed. -/
theorem vec_start {N n w : Nat} (d : ScatterDims ⟨1, ![N]⟩ ⟨2, ![n, 1]⟩ ⟨1, ![n]⟩)
    (hsd : d.scatterDimsToOperandDims = [0]) (hivd : d.indexVectorDim = 1)
    (idx : IVec ⟨2, ![n, 1]⟩ w) (e : Fin n) :
    d.start (ix1 e) idx 0 = (idx (ix2 e (0 : Fin 1))).toInt := by
  -- the update has one axis, so each of its scatter axes is axis 0
  have hAll : ∀ y ∈ d.uScatter, y = 0 := by
    intro y _
    apply Fin.ext
    have := y.isLt
    change y.val < 1 at this
    show y.val = 0
    omega
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 1) d.scatterDimsToOperandDims = 0
    rw [hsd]; simp

/-- Update e lands at position v of the vector exactly when its scatter index, read signed, is v. -/
theorem vec_lands {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e (0 : Fin 1))).toInt = (v.val : ℤ) := by
  rw [resultIdx?_eq_some_iff]
  -- the vector's axis is inserted: no window coordinate on it
  have hk : (0 : Fin 1) ∉ d.sKept := by
    intro h
    have h0 := (List.mem_filter.1 h).2
    rw [hiw] at h0
    simp at h0
  have hw : d.window (ix1 e) 0 = 0 := by unfold ScatterDims.window; rw [dif_neg hk]
  constructor
  · intro h
    have h0 : d.start (ix1 e) idx 0 + (d.window (ix1 e) 0 : ℤ) = (v.val : ℤ) := h 0
    rw [vec_start d hsd hivd, hw] at h0
    simpa using h0
  · intro h a
    match a with
    | ⟨0, _⟩ =>
      show d.start (ix1 e) idx 0 + (d.window (ix1 e) 0 : ℤ) = _
      rw [vec_start d hsd hivd, hw, h]
      simp

/-- ENTRIES ADDED INTO A VECTOR. The same for a vector of length N and n scalar updates (no window axis). -/
theorem scatterAdd_vec {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![n, 1]⟩ w) (upd : (⟨1, ![n]⟩ : Shape).Idx → EReal)
    (v : Fin N) :
    Host.scatterAdd (F := Ideal) (φ := .f32) d x idx upd (ix1 v)
      = x (ix1 v) + ∑ e : Fin n, if (idx (ix2 e (0 : Fin 1))).toInt = (v.val : ℤ) then upd (ix1 e) else 0 := by
  unfold Host.scatterAdd
  rw [Ideal.hostScatterAdd_def]
  unfold Ideal.hostScatterAdd
  congr 1
  rw [Finset.sum_filter]
  -- the update indices are the numbers of the updates
  refine Fintype.sum_equiv idxFin1 _ _ (fun j => ?_)
  obtain ⟨e, rfl⟩ : ∃ e : Fin n, j = ix1 e := ⟨j 0, eq_ix1 j⟩
  change _ = if (idx (ix2 e (0 : Fin 1))).toInt = (v.val : ℤ) then upd (ix1 e) else 0
  by_cases hc : (idx (ix2 e (0 : Fin 1))).toInt = (v.val : ℤ)
  · rw [if_pos hc, if_pos ((vec_lands d hiw hsd hivd idx e v).2 hc)]
  · rw [if_neg hc, if_neg (fun h => hc ((vec_lands d hiw hsd hivd idx e v).1 h))]

/-- A TAKE FROM A VECTOR. A gather from a vector of length N at an [n × 1] column of start indices, the vector's
    axis collapsed and start-indexed, no offset and no batching axes, the index vector on axis 1: entry p is the
    vector at position p's start index read SIGNED and CLAMPED into 0 … N − 1. -/
theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (hN : 0 < N) :
    Host.gather d x idx (ix1 p) = x (ix1 ⟨min (idx (ix2 p (0 : Fin 1))).toInt.toNat (N - 1), by omega⟩) := by
  unfold Host.gather
  congr 1
  -- the result has one axis, so each of its batch axes is axis 0
  have hbatchAll : ∀ y ∈ d.batchDims, y = 0 := by
    intro y _
    apply Fin.ext
    have := y.isLt
    change y.val < 1 at this
    show y.val = 0
    omega
  have hb : ∀ a : Fin 1, a ∉ d.operandBatchingDims := by intro a; rw [hob]; exact List.not_mem_nil
  funext a
  apply Fin.ext
  match a with
  | ⟨0, _⟩ =>
    -- the vector's one axis: the clamped start index; no batching and no offset coordinate
    have hk : (0 : Fin 1) ∉ d.sKept := by rw [GatherDims.mem_sKept, hcoll]; simp
    have hm : (0 : Fin 1) ∈ d.startIndexMap := by rw [hsim]; exact List.mem_singleton.mpr rfl
    have hsl : d.sliceSizes 0 = 1 := d.slice_collapsed 0 (by rw [hcoll]; exact List.mem_singleton.mpr rfl)
    show (d.operandIdx (ix1 p) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 1) d.startIndexMap = 0
      rw [hsim]; simp

end Cert.Lib

end
-- ==== Proof.LibGatherRows.lean ====
/-
  A row take from a rank-2 table, read at an index.

  The row take `table[idx]` over an [N × C] table and a vector of n positions is a `stablehlo.gather` whose start
  indices are the [n × 1] column of positions; the table's axis 0 is collapsed and start-indexed, its axis 1 is the
  result's one offset axis (a whole row is the slice), there are no batching axes, and the index vector lies on axis 1
  of the start indices. This file reads such a gather at a result index.
-/
import Idealize.ShloMosaic.Lib.ValueIdx
import Idealize.ShloMosaic.PureOps.ShapeOps
import Idealize.ShloMosaic.PureOps.Dims

namespace Cert.Lib

open Idealize.ShloMosaic Idealize.ShloMosaic.ValueIdx

/-- THE ROW TAKE. A gather from an [N × C] table at an [n × 1] column of start indices, with the table's axis 0
    collapsed and start-indexed, the result's axis 1 its one offset axis, no batching axes and the index vector on
    axis 1 (`hoff` … `hivd`: the printed dimension numbers, each by `rfl`): the result's entry (p, k) is the table's
    entry (r, k), where the row r is position p's start index read SIGNED and CLAMPED into the table (a negative index
    reads row 0, one past the end reads the last row). -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (k : Fin C) (hN : 0 < N) :
    Host.gather d x idx (ix2 p k) = x (ix2 ⟨min (idx (ix2 p 0)).toInt.toNat (N - 1), by omega⟩ k) := by
  unfold Host.gather
  congr 1
  -- every offset axis of the result is axis 1, every batch axis is axis 0
  have hoffAll : ∀ y ∈ d.offsetDims, y = 1 := by
    intro y hy; rw [hoff] at hy; exact List.mem_singleton.1 hy
  have hbatchAll : ∀ y ∈ d.batchDims, y = 0 := by
    intro y hy
    have h1 : y ∉ d.offsetDims := by have h0 := (List.mem_filter.1 hy).2; simpa using h0
    rw [hoff] at h1
    have h2 : y ≠ 1 := fun e => h1 (List.mem_singleton.2 e)
    apply Fin.ext
    have h3 : y.val ≠ 1 := fun e => h2 (Fin.ext e)
    have := y.isLt
    show y.val = 0
    change y.val < 2 at this
    omega
  have hb : ∀ a : Fin 2, a ∉ d.operandBatchingDims := by intro a; rw [hob]; exact List.not_mem_nil
  funext a
  apply Fin.ext
  match a with
  | ⟨0, _⟩ =>
    -- axis 0: the clamped start index; no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix2 p k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- axis 1: no start (it is not start-indexed), no batching; the offset coordinate is the result's column
    have hk : (1 : Fin 2) ∈ d.sKept := by rw [GatherDims.mem_sKept, hcoll]; exact ⟨by simp, hb 1⟩
    have hm : (1 : Fin 2) ∉ d.startIndexMap := by rw [hsim]; simp
    show (d.operandIdx (ix2 p k) idx 1).val = _
    simp only [GatherDims.operandIdx, GatherDims.batchCoord_eq_zero _ _ _ (hb 1), Nat.add_zero, GatherDims.start,
      dif_neg hm, Nat.zero_add, GatherDims.offCoord, dif_pos hk]
    rw [hoffAll _ (List.getElem_mem _)]
    rfl

end Cert.Lib
-- ==== Proof.RefSide.lean ====
/-
  The reference's neighbour sums, read at an entry.

  The reference takes row senders(e) of the node table for every edge e (a negative index wrapped by 10000 first, the
  start index clamped into the table) and adds it into row receivers(e) of a zero table; an edge whose receiver is no row
  of the table is dropped. With every sender in 0 … 9999 the wrap and the clamp do nothing, and entry (v, f) is the sum,
  over the edges whose receiver read signed is v, of node(senders(e), f).
-/
import proofs.«430740_j24953759989866_1_alg».proof.Proof.Gen.ReferenceIdeal.Read
import proofs.«430740_j24953759989866_1_alg».proof.Proof.LibScatterGather
import proofs.«430740_j24953759989866_1_alg».proof.Proof.LibGatherRows
import proofs.«430740_j24953759989866_1_alg».proof.Proof.Selector
import Idealize.ShloMosaic.Lib.ValueIdx
import Idealize.ShloMosaic.PureOps.Ideal.Laws

noncomputable section

namespace Cert.ReferenceIdeal.Ref

open Idealize.ShloMosaic Idealize.ShloMosaic.ValueIdx
open Cert.ReferenceIdeal Cert.ReferenceIdeal.Gen Cert.ReferenceIdeal.Read Cert.Gin

/-- The one-column index (e, 0) of the sender column reads the sender vector at e. -/
private theorem idx9_at (e : Fin 640000) : idx_main_v9 (ix2 e (0 : Fin 1)) = ix1 e := by
  funext a; match a with | ⟨0, _⟩ => rfl

/-- The one-column index (e, 0) of the receiver column reads the receiver vector at e. -/
private theorem idx12_at (e : Fin 640000) : idx_main_v12 (ix2 e (0 : Fin 1)) = ix1 e := by
  funext a; match a with | ⟨0, _⟩ => rfl

/-- A word that is not negative read signed has its signed less-than-zero bit 0. -/
private theorem slt_zero_bit (w : BitVec 32) (h : 0 ≤ w.toInt) : IntOp.cmpi .slt w 0#32 = 0#1 := by
  apply eq_zero_of_ne_one
  intro h1
  unfold IntOp.cmpi at h1
  have h2 : w.slt 0#32 = true := (StableHlo.Predicate.ofBool_eq_one_iff _).1 h1
  rw [BitVec.slt_iff_toInt_lt, BitVec.toInt_zero] at h2
  omega

/-- For a word w with 0 ≤ w < 10000 read signed, the clamp of its signed value into 0 … 9999 is its unsigned value,
    which is its own remainder by 10000. -/
private theorem row_eq (w : BitVec 32) (h0 : 0 ≤ w.toInt) (h1 : w.toInt < 10000) :
    min w.toInt.toNat (10000 - 1) = w.toNat % 10000 := by
  have hc := BitVec.toInt_eq_toNat_cond w
  have hlt := w.isLt
  split at hc <;> omega

/-- With every sender in range the wrapped sender of edge e is the sender itself. -/
private theorem v9_at (x1 : IVec S2x640000 32) (e : Fin 640000)
    (h : 0 ≤ (val_main_v1 (F := Ideal) x1 (ix1 e)).toInt) :
    val_main_v9 (F := Ideal) x1 (ix2 e (0 : Fin 1)) = val_main_v1 (F := Ideal) x1 (ix1 e) := by
  rw [val_main_v9_apply, idx9_at, val_main_v8_apply, val_main_v5_apply, val_main_v4_apply, val_main_c_apply,
    slt_zero_bit _ h, select_zero]

/-- The gathered row of edge e is the node table's row at the sender. -/
private theorem v10_at (x0 : Vec Ideal S10000x128 .f32) (x1 : IVec S2x640000 32) (e : Fin 640000) (f : Fin 128)
    (h0 : 0 ≤ (val_main_v1 (F := Ideal) x1 (ix1 e)).toInt) (h1 : (val_main_v1 (F := Ideal) x1 (ix1 e)).toInt < 10000) :
    val_main_v10 (F := Ideal) x0 x1 (ix2 e f)
      = x0 (ix2 (⟨(val_main_v1 (F := Ideal) x1 (ix1 e)).toNat % 10000, Nat.mod_lt _ (by decide)⟩ : Fin 10000) f) := by
  unfold val_main_v10
  refine (Cert.Lib.gather_rows (N := 10000) (C := 128) (n := 640000) (w := 32)
    gather_S10000x128_S640000x1_S640000x128_1_0_n_n_0_1_1128 rfl rfl rfl rfl rfl x0 (val_main_v9 (F := Ideal) x1) e f
    (by decide)).trans ?_
  refine congrArg x0 (congrArg (fun r => ix2 r f) (Fin.ext ?_))
  show min (val_main_v9 (F := Ideal) x1 (ix2 e (0 : Fin 1))).toInt.toNat (10000 - 1) = _
  rw [v9_at x1 e h0]
  exact row_eq _ h0 h1

/-- The reference's neighbour sums at entry (v, f), every sender in range. -/
theorem nu_apply (x0 : Vec Ideal S10000x128 .f32) (x1 : IVec S2x640000 32)
    (hs : ∀ e : Fin 640000, 0 ≤ (val_main_v1 (F := Ideal) x1 (ix1 e)).toInt ∧ (val_main_v1 (F := Ideal) x1 (ix1 e)).toInt < 10000)
    (v : Fin 10000) (f : Fin 128) :
    val_main_v13 (F := Ideal) x0 x1 (ix2 v f)
      = ∑ e : Fin 640000, if (val_main_v3 (F := Ideal) x1 (ix1 e)).toInt = (v.val : ℤ)
          then x0 (ix2 (⟨(val_main_v1 (F := Ideal) x1 (ix1 e)).toNat % 10000, Nat.mod_lt _ (by decide)⟩ : Fin 10000) f) else 0 := by
  unfold val_main_v13
  refine (Cert.Lib.scatterAdd_rows (N := 10000) (C := 128) (n := 640000) (w := 32)
    scatter_S10000x128_S640000x1_S640000x128_1_0_0_1 rfl rfl rfl rfl (val_main_v11 (F := Ideal))
    (val_main_v12 (F := Ideal) x1) (val_main_v10 (F := Ideal) x0 x1) v f).trans ?_
  have hz : val_main_v11 (F := Ideal) (ix2 v f) = (0 : EReal) := by
    rw [val_main_v11_apply, val_main_cst_apply]
    exact Ideal.ofBits_zero_f32
  rw [hz, zero_add]
  refine Finset.sum_congr rfl (fun e _ => ?_)
  rw [val_main_v12_apply, idx12_at, v10_at x0 x1 e f (hs e).1 (hs e).2]

end Cert.ReferenceIdeal.Ref

end
-- ==== Proof.Pre.lean ====
/-
  The precondition read: every sender lies in 0 … 9999.

  The precondition is the conjunction of three all-reductions; its third says that every word of row 1 of the index
  array is at least 0 and below 10000, compared as signed integers.
-/
import proofs.«430740_j24953759989866_1_alg».proof.Pre_finite_inputs
import proofs.«430740_j24953759989866_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.Pre_finite_inputs.Dom

open Idealize.ShloMosaic Idealize.ShloMosaic.ValueIdx
open Cert.Pre_finite_inputs Cert.Pre_finite_inputs.Gen

/-- Under the precondition every sender word, read signed, lies in 0 … 9999. -/
theorem senders_range {F : FTy → Type} [FloatOps F] (x0 : FVec F S10000x128 .f32) (x1 : IVec S2x640000 32) (x2 : FVec F S_ .f32)
    (h : Cert.Pre_finite_inputs.fn (F := F) x0 x1 x2 = fun _ => 1#1) (e : Fin 640000) :
    0 ≤ (shapeCast S640000 (extractStridedSlice S1x640000 ![1, 0] x1 slices_S2x640000_S1x640000_1_0) shapeCasts_S1x640000_S640000 (ix1 e)).toInt
      ∧ (shapeCast S640000 (extractStridedSlice S1x640000 ![1, 0] x1 slices_S2x640000_S1x640000_1_0) shapeCasts_S1x640000_S640000 (ix1 e)).toInt < 10000 := by
  haveI : Subsingleton S_.Idx := ⟨fun a b => funext fun d => d.elim0⟩
  -- the precondition at its one index, its chain of operations in view
  have h0 := congrFun h ValueIdx.ix0
  dsimp only [Cert.Pre_finite_inputs.fn, Cert.Pre_finite_inputs.fn_part1] at h0
  -- the last conjunct is the all-reduction of the range test over the senders
  have hall := (IntOp.andi_eq_one.1 h0).2
  -- so the test holds at edge e: both of its comparisons
  have hp := Host.reduce_andi_all _ _ _ _ _ hall (ix1 e)
  obtain ⟨hge, hlt⟩ := IntOp.andi_eq_one.1 hp
  have hge' := IntOp.cmpi_sge.1 hge
  have hlt' := IntOp.cmpi_slt.1 hlt
  -- a broadcast scalar constant read anywhere is the constant
  have b0 : ∀ (c : BitVec 32) (hb : S_.BroadcastsInDim S640000 (![] : Fin 0 → Fin S640000.rank)),
      broadcastInDim S640000 ![] hb (constantI S_ 32 c) (ix1 e) = c :=
    fun c hb => StableHlo.Predicate.bcast_scalar hb Gen.h_S_ _ _
  rw [b0] at hge' hlt'
  have z0 : (0#32 : BitVec 32).toInt = 0 := by decide
  have z1 : (10000#32 : BitVec 32).toInt = 10000 := by decide
  rw [z0] at hge'
  rw [z1] at hlt'
  exact ⟨hge', hlt'⟩

end Cert.Pre_finite_inputs.Dom

end
-- ==== Proof.Bridge.lean ====
/-
  The kernel's neighbour sums are the reference's.

  With every sender in 0 … 9999, the kernel's contribution of an edge x to entry (v, f), v < 10000, is
      [receivers(x) is the word of v] · ∑ q < 10112, [senders(x) is the word of q] · padded(q, f)
    = if receivers(x) = v then node(senders(x), f) else 0,
  since a selector row picks one entry of the column and the padded table is the node table below row 10000. The kernel
  adds these over 2 halves × 625 blocks × 512 edges, the reference over the 640000 edges at once: the same sum, cut into
  blocks. The extended reals' addition is commutative and associative, and 0 · x = 0, 1 · x = x hold for every extended
  real, so no finiteness is used.
-/
import proofs.«430740_j24953759989866_1_alg».proof.Proof.Final
import proofs.«430740_j24953759989866_1_alg».proof.Proof.Tail
import proofs.«430740_j24953759989866_1_alg».proof.Proof.RefSide
import proofs.«430740_j24953759989866_1_alg».proof.Proof.Pre
import proofs.«430740_j24953759989866_1_alg».proof.Defs

set_option maxRecDepth 16384

noncomputable section

namespace Cert.KernelIdeal.Acc

open Idealize.ShloMosaic Idealize.ShloMosaic.TcCoe Idealize.ShloMosaic.ValueIdx Idealize.SL.Sem
open Cert.KernelIdeal Cert.KernelIdeal.Gen Cert.Gin

variable (m : (ℓ : Loc nD τ sig) → Buf (Elt Ideal) ℓ)

/-- Row v of the 10000 as a row of the 10112. -/
def wide (v : Fin 10000) : Fin 10112 := ⟨v.val, by have := v.isLt; omega⟩

/-- The neighbour sums at entry (v, f): the two slabs' entries (v, f) added. -/
theorem nuOf_apply (O : Vec Ideal S2x10112x128 .f32) (v : Fin 10000) (f : Fin 128) :
    nuOf (F := Ideal) O (ix2 v f) = O (ix3 (0 : Fin 2) (wide v) f) + O (ix3 (1 : Fin 2) (wide v) f) := by
  unfold nuOf
  refine (extractStridedSlice_apply ![0, 0] _ slices_S10112x128_S10000x128_0_0 (ix2 v f) (ix2 (wide v) f) (fun a => ?_)).trans ?_
  · match a with
    | ⟨0, _⟩ => show v.val = 0 + v.val; omega
    | ⟨1, _⟩ => show f.val = 0 + f.val; omega
  · rw [addf_apply]
    congr 1
    · refine (shapeCast_1ab_ab_apply _ shapeCasts_S1x10112x128_S10112x128 (wide v) f).trans ?_
      exact extractStridedSlice_apply ![0, 0, 0] O slices_S2x10112x128_S1x10112x128_0_0_0 (ix3 (0 : Fin 1) (wide v) f)
        (ix3 (0 : Fin 2) (wide v) f) (fun a => by
        match a with
        | ⟨0, _⟩ => show (0 : ℕ) = 0 + 0; omega
        | ⟨1, _⟩ => show v.val = 0 + v.val; omega
        | ⟨2, _⟩ => show f.val = 0 + f.val; omega)
    · refine (shapeCast_1ab_ab_apply _ shapeCasts_S1x10112x128_S10112x128 (wide v) f).trans ?_
      exact extractStridedSlice_apply ![1, 0, 0] O slices_S2x10112x128_S1x10112x128_1_0_0 (ix3 (0 : Fin 1) (wide v) f)
        (ix3 (1 : Fin 2) (wide v) f) (fun a => by
        match a with
        | ⟨0, _⟩ => show (1 : ℕ) = 1 + 0; omega
        | ⟨1, _⟩ => show v.val = 0 + v.val; omega
        | ⟨2, _⟩ => show f.val = 0 + f.val; omega)

/-- The contribution of edge x to entry (v, f): the sender's row of the node table when the receiver is v. -/
def term (c : Dev nD) (v : Fin 10000) (f : Fin 128) (x : Fin 640000) : EReal :=
  if (rcv m c (ix1 x)).toInt = (v.val : ℤ)
    then node m c (ix2 (⟨(snd m c (ix1 x)).toNat % 10000, Nat.mod_lt _ (by decide)⟩ : Fin 10000) f) else 0

/-- A word is the word of v exactly when, read signed, it is v (v below 10000). -/
theorem word_eq_iff (w : BitVec 32) (v : Fin 10000) : w = BitVec.ofNat 32 v.val ↔ w.toInt = (v.val : ℤ) := by
  have hv := v.isLt
  constructor
  · intro h
    subst h
    exact StableHlo.Predicate.toInt_ofNat_small v.val (by omega)
  · intro h
    apply BitVec.eq_of_toInt_eq
    rw [h, StableHlo.Predicate.toInt_ofNat_small v.val (by omega)]

/-- One edge's contribution as the kernel forms it. -/
theorem edge_term (c : Dev nD) (v : Fin 10000) (f : Fin 128) (x : Fin 640000)
    (hs : 0 ≤ (snd m c (ix1 x)).toInt ∧ (snd m c (ix1 x)).toInt < 10000) (P : Fin 10112 → EReal)
    (hP : ∀ q : Fin 10112, P q = if h : q.val < 10000 then node m c (ix2 ⟨q.val, h⟩ f) else 0) :
    sel (rcv m c (ix1 x)) (BitVec.ofNat 32 (wide v).val) * ∑ q : Fin 10112, sel (snd m c (ix1 x)) (BitVec.ofNat 32 q.val) * P q
      = term m c v f x := by
  have hnat : (snd m c (ix1 x)).toNat < 10000 := by
    have h1 := hs.1; have h2 := hs.2
    have := BitVec.toInt_eq_toNat_cond (snd m c (ix1 x))
    have hlt := (snd m c (ix1 x)).isLt
    split at this <;> omega
  rw [sel_sum (by decide) (snd m c (ix1 x)) P, dif_pos (by omega : (snd m c (ix1 x)).toNat < 10112), hP, dif_pos hnat]
  rw [sel_eq, show (wide v).val = v.val from rfl]
  unfold term
  by_cases hr : (rcv m c (ix1 x)).toInt = (v.val : ℤ)
  · rw [if_pos ((word_eq_iff _ v).2 hr), if_pos hr, one_mul]
    exact congrArg (fun r : Fin 10000 => node m c (ix2 r f)) (Fin.ext (Nat.mod_eq_of_lt hnat).symm)
  · rw [if_neg (fun h => hr ((word_eq_iff _ v).1 h)), if_neg hr, zero_mul]

/-- A grid point's contribution is its 512 edges'. -/
theorem addend_eq (c : Dev nD) (hs : ∀ x : Fin 640000, 0 ≤ (snd m c (ix1 x)).toInt ∧ (snd m c (ix1 x)).toInt < 10000)
    (t : Fin cfg0.N) (v : Fin 10000) (f : Fin 128) :
    addend m c t (wide v) f = ∑ e : Fin 512, term m c v f (edge (halfOf t) (blockOf t) e) := by
  unfold addend
  refine Finset.sum_congr rfl (fun e _ => ?_)
  rw [rblk_apply, sblk_apply]
  exact edge_term m c v f _ (hs _) (fun q => nblk m c t (ix2 q f)) (fun q => nblk_apply m c t q f)

/-- The grid point with half sh and block b. -/
def point (sh : Fin 2) (b : Fin 625) : Fin cfg0.N :=
  ⟨sh.val * 625 + b.val, by have := sh.isLt; have := b.isLt; rw [show cfg0.N = 1250 from N_0]; omega⟩

theorem halfOf_point (sh : Fin 2) (b : Fin 625) : halfOf (point sh b) = sh := by
  apply Fin.ext
  show (sh.val * 625 + b.val) / 625 = sh.val
  have := b.isLt
  omega

theorem blockOf_point (sh : Fin 2) (b : Fin 625) : blockOf (point sh b) = b := by
  apply Fin.ext
  show (sh.val * 625 + b.val) % 625 = b.val
  have := b.isLt
  omega

/-- A half's accumulated contributions are its 625 · 512 edges'. -/
theorem half_sum (c : Dev nD) (hs : ∀ x : Fin 640000, 0 ≤ (snd m c (ix1 x)).toInt ∧ (snd m c (ix1 x)).toInt < 10000)
    (sh : Fin 2) (v : Fin 10000) (f : Fin 128) :
    partials m c (ix3 sh (wide v) f) = ∑ b : Fin 625, ∑ e : Fin 512, term m c v f (edge sh b e) := by
  rw [partials_apply, Finset.sum_range]
  refine Finset.sum_congr rfl (fun b _ => ?_)
  have hb : sh.val * 625 + b.val < cfg0.N := (point sh b).isLt
  unfold addendN
  rw [dif_pos hb]
  have := addend_eq m c hs (point sh b) v f
  rw [halfOf_point, blockOf_point] at this
  exact this

/-- The kernel's neighbour sums at entry (v, f): the sum over all edges. -/
theorem nu_kernel (c : Dev nD) (hs : ∀ x : Fin 640000, 0 ≤ (snd m c (ix1 x)).toInt ∧ (snd m c (ix1 x)).toInt < 10000)
    (v : Fin 10000) (f : Fin 128) :
    nuOf (F := Ideal) (partials m c) (ix2 v f) = ∑ x : Fin 640000, term m c v f x := by
  rw [nuOf_apply, half_sum m c hs, half_sum m c hs, sum_edges, Fin.sum_univ_two]

/-- Under the precondition the kernel's neighbour sums are the reference's scatter-add of its gather. -/
theorem nu_eq (c : Dev nD)
    (hpre : Cert.Pre_finite_inputs.fn (F := Ideal) (m ((c.tc : Thread nD τ).loc main_arg0)) (m ((c.tc : Thread nD τ).loc main_arg1)) (m ((c.tc : Thread nD τ).loc main_arg2)) = fun _ => 1#1) :
    nuOf (F := Ideal) (partials m c)
      = Cert.ReferenceIdeal.Read.val_main_v13 (F := Ideal) (m ((c.tc : Thread nD τ).loc main_arg0)) (m ((c.tc : Thread nD τ).loc main_arg1)) := by
  have hs : ∀ x : Fin 640000, 0 ≤ (snd m c (ix1 x)).toInt ∧ (snd m c (ix1 x)).toInt < 10000 := fun x =>
    Cert.Pre_finite_inputs.Dom.senders_range (F := Ideal) _ _ _ hpre x
  funext j
  obtain ⟨v, f, rfl⟩ : ∃ (v : Fin 10000) (f : Fin 128), j = ix2 v f := ⟨j 0, j 1, eq_ix2 j⟩
  refine (nu_kernel m c hs v f).trans ?_
  exact (Cert.ReferenceIdeal.Ref.nu_apply (m ((c.tc : Thread nD τ).loc main_arg0)) (m ((c.tc : Thread nD τ).loc main_arg1)) hs v f).symm

end Cert.KernelIdeal.Acc

end
-- ==== Proof.lean ====
/-
  Graph message passing, (1 + eps) · node + (sum over incoming edges of the sender's row), computed two ways.

  The kernel pads the node table to 10112 rows, cuts the 640000 edges into 2 halves of 625 blocks of 512 edges and, per
  block, forms two selector matrices — P(e, q) = [sender of e is q], R(e, n) = [receiver of e is n] — gathers the
  senders' rows as the product P · X and adds Rᵀ · (P · X) into an accumulator carried over the half's 625 grid points;
  the two halves' accumulators are added, the first 10000 rows kept, and (1 + eps) · node added. The reference takes the
  rows node[senders] and adds them into rows receivers of a zero table (an edge whose receiver is no row is dropped by
  both), then adds (1 + eps) · node.

  Over the extended reals a selector row times a column is the column's entry at the index (0 · x = 0 and 1 · x = x for
  every x, infinite ones too), the padded table is the node table on the rows a sender in 0 … 9999 can name, and a sum
  over the edges may be taken block by block in any grouping: both programs compute, at entry (v, f),
      (1 + eps) · node(v, f) + ∑ over edges x with receiver v of node(sender of x, f).
  The precondition asks every sender to lie in 0 … 9999 (outside it the reference's own row take wraps or clamps the
  index while a selector row has no 1 at all); receivers need nothing. The three frames are the generated ones and the
  reference's run; the kernel's idealization rewrote nothing.
-/
import proofs.«430740_j24953759989866_1_alg».proof.Defs
import proofs.«430740_j24953759989866_1_alg».proof.Proof.Gen.Kernel
import proofs.«430740_j24953759989866_1_alg».proof.Proof.Gen.Kernel.Skeleton
import proofs.«430740_j24953759989866_1_alg».proof.Proof.Gen.Kernel.Launch
import proofs.«430740_j24953759989866_1_alg».proof.Proof.Gen.Kernel.Points
import proofs.«430740_j24953759989866_1_alg».proof.Proof.Gen.Kernel.Frame
import proofs.«430740_j24953759989866_1_alg».proof.Proof.Gen.KernelIdeal
import proofs.«430740_j24953759989866_1_alg».proof.Proof.Gen.KernelIdeal.Skeleton
import proofs.«430740_j24953759989866_1_alg».proof.Proof.Gen.KernelIdeal.Launch
import proofs.«430740_j24953759989866_1_alg».proof.Proof.Gen.KernelIdeal.Points
import proofs.«430740_j24953759989866_1_alg».proof.Proof.Gen.KernelIdeal.Frame
import proofs.«430740_j24953759989866_1_alg».proof.Proof.Gen.ReferenceIdeal
import proofs.«430740_j24953759989866_1_alg».proof.Proof.Gen.Pre_finite_inputs
import proofs.«430740_j24953759989866_1_alg».proof.Proof.Gen.ReferenceIdeal.Run
import proofs.«430740_j24953759989866_1_alg».proof.Proof.Gen.ReferenceIdeal.Read
import proofs.«430740_j24953759989866_1_alg».proof.Proof.Bridge
import Idealize.ShloMosaic.Adequacy
import Idealize.ShloMosaic.Init

noncomputable section

namespace Cert.Proof

open Idealize.ShloMosaic Idealize.SL.Sem

/-- The word-level kernel terminates without a fault and keeps its arguments: the generated frame. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at (1 + eps) · node + the neighbour sums, and under the precondition the kernel's neighbour sums
    (the two halves' accumulated selector products) are the reference's scatter-add of its gather. -/
theorem algebraic : Cert.algebraic_KernelIdeal_ReferenceIdeal := by
  intro m ρ m' ρ' hpre hagree
  refine ⟨fun c => Cert.KernelIdeal.Acc.combine (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (Cert.KernelIdeal.Acc.nuOf (F := Ideal) (Cert.KernelIdeal.Acc.partials m c)), ?_, ?_⟩
  · refine (θ_run Cert.KernelIdeal.defs _ _).mono (fun _ h c => ⟨(h c).1.trans ?_, (h c).2⟩)
      (Cert.KernelIdeal.Acc.run_tail (F := Ideal) m ρ)
    rw [Cert.KernelIdeal.Acc.final_out]
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    beta_reduce
    rw [Cert.KernelIdeal.Acc.nu_eq m c (hpre c)]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
